-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x2048 : Shape := ⟨3, ![128, 256, 2048]⟩
abbrev S128 : Shape := ⟨1, ![128]⟩
abbrev S8x256x256 : Shape := ⟨3, ![8, 256, 256]⟩
abbrev S_ : Shape := ⟨0, ![]⟩

class Facts : Prop where
  bcast_S_S128x256x2048 : S_.BroadcastsInDim S128x256x2048 (![] : Fin 0 → Fin S128x256x2048.rank)
  reducesTo_S128x256x2048_S_d0_1_2 : S128x256x2048.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x256x2048 .f32) (main_arg1 : IVec S128 32) (main_arg2 : FVec F S8x256x256 .f32) : IVec S_ 1 :=
  let main_v0 : FVec F S128x256x2048 .f32 := Host.absf main_arg0
  let main_cst : FVec F S_ .f32 := constant S_ .f32 0x7F800000#32
  let main_v1 : FVec F S128x256x2048 .f32 := broadcastInDim S128x256x2048 ![] bcast_S_S128x256x2048 main_cst
  let main_v2 : IVec S128x256x2048 1 := cmpf .olt main_v0 main_v1
  let main_c : IVec S_ 1 := constantI S_ 1 1#1
  let main_v3 : IVec S_ 1 := (fun x v => Host.reduce IntOp.andi x v reducesTo_S128x256x2048_S_d0_1_2 h_S_) main_v2 main_c
  let main_v4 : FVec F S8x256x256 .f32 := Host.absf main_arg2
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  let main_c_4 : IVec S_ 32 := constantI S_ 32 8#32
  let main_v13 : IVec S128 32 := broadcastInDim S128 ![] bcast_S_S128 main_c_4
  let main_v14 : IVec S128 1 := cmpi .slt main_arg1 main_v13
  let main_c_5 : IVec S_ 1 := constantI S_ 1 1#1
  let main_v15 : IVec S_ 1 := (fun x v => Host.reduce IntOp.andi x v reducesTo_S128_S_d0 h_S_) main_v14 main_c_5
  fn_part1 (F := F) main_v12 main_v15
-- ==== Kernel.lean ====
abbrev S128x256x2048 : Shape := ⟨3, ![128, 256, 2048]⟩
abbrev S128 : Shape := ⟨1, ![128]⟩
abbrev S8x256x256 : Shape := ⟨3, ![8, 256, 256]⟩
abbrev S_ : Shape := ⟨0, ![]⟩
abbrev S4x256x2048 : Shape := ⟨3, ![4, 256, 2048]⟩
abbrev S1 : Shape := ⟨1, ![1]⟩
abbrev S1x256x256 : Shape := ⟨3, ![1, 256, 256]⟩
abbrev S256x256 : Shape := ⟨2, ![256, 256]⟩
abbrev S1x256x2048 : Shape := ⟨3, ![1, 256, 2048]⟩
abbrev S256x2048 : Shape := ⟨2, ![256, 2048]⟩

abbrev nBuf : Space → Nat
  | .hbm => 12
  | .vmem => 5
  | .smem => 1
  | _ => 0

abbrev bufTy : (tb : Table) → Fin (tcTables nBuf tb) → BufTy
  | .hbm, ⟨0, _⟩ => ⟨S128x256x2048, .f32⟩
  | .hbm, ⟨1, _⟩ => ⟨S128, .i32⟩
  | .hbm, ⟨2, _⟩ => ⟨S8x256x256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S8x256x256, .bf16⟩
  | .hbm, ⟨11, _⟩ => ⟨S128x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S8x256x256, .bf16⟩
  | .local _ .vmem, ⟨3, _⟩ => ⟨S4x256x2048, .f32⟩
  | .local _ .vmem, ⟨4, _⟩ => ⟨S4x256x2048, .f32⟩
  | .local _ .smem, ⟨0, _⟩ => ⟨S128, .i32⟩
  | _, _ => ⟨S128x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c4_i32_0 : BitVec 32 := 4#32
  let v1 : BitVec 32 := Scalar.addi c0_i32 c4_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let c1_i32 : BitVec 32 := 1#32
  let arg5 : BitVec 32 := Scf.iv c0_i32 c1_i32 k0_t1
  let v2 : BitVec 32 := Scalar.addi v0 arg5
  let v3 : Index := Scalar.indexCast v2
  ![v3.toNat]
def k0_off2 (v4 : BitVec 32) : Fin 3 → Nat :=
  let v5 : Index := Scalar.indexCast v4
  let c0 : Index := 0#32
  let c0_2 : Index := 0#32
  ![v5.toNat, 0, 0]

def k0_chk1 (v4 : BitVec 32) : Prop :=
  (∀ a, (k0_off2 v4) a + S1x256x256.size a ≤ S8x256x256.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x256x256.size a ≤ S8x256x256.size a := fun v4 k0_hw1 => k0_hw1

def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v8 : Index := Scalar.indexCast arg5
  let c0_3 : Index := 0#32
  let c0_4 : Index := 0#32
  ![v8.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  bitsLt_bf16_f32 : FTy.bits .bf16 < FTy.bits .f32
  numel1_S1 : S1.numel = 1
  h_S1x256x256 : 0 < S1x256x256.numel
  shapeCasts_S1x256x256_S256x256 : S1x256x256.ShapeCasts S256x256
  h_S1x256x2048 : 0 < S1x256x2048.numel
  shapeCasts_S1x256x2048_S256x2048 : S1x256x2048.ShapeCasts S256x2048
  shapeCasts_S256x2048_S1x256x2048 : S256x2048.ShapeCasts S1x256x2048
  dot_S256x256_S256x2048_S256x2048_0_0_1_1_n_n_wf : DotDims.WF S256x256 S256x2048 S256x2048 [0] [0] [1] [1] [] []
  hrank0 : 0 < grid0.rank
  k0_t1_ok : k0_t1_loop.OK
  k0_off1_inb : ∀ (i : grid0.Coords) (k0_t1 : Fin k0_t1_loop.trips), ∀ a, (k0_off1 i k0_t1) a + S1.size a ≤ S128.size a
  k0_off3_inb : ∀ k0_t1 : Fin k0_t1_loop.trips, ∀ a, (k0_off3 k0_t1) a + S1x256x2048.size a ≤ S4x256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S128x256x2048.size a
  hwx0_0 : ∀ i : grid0.Coords, EltTy.bits .f32 = 32 ∨ (Rect.block (s := S128x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x256x256.size a
  hwx0_1 : ∀ i : grid0.Coords, EltTy.bits .bf16 = 32 ∨ (Rect.block (s := S8x256x256) S8x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S128x256x2048.size a
  hwx0_2 : ∀ i : grid0.Coords, EltTy.bits .f32 = 32 ∨ (Rect.block (s := S128x256x2048) S4x256x2048.size (cc0_transform_2 i) (hinb0_2 i)).WholeWords (EltTy.packing .f32)

variable [Facts₀]

def dot_S256x256_S256x2048_S256x2048_0_0_1_1_n_n : DotDims S256x256 S256x2048 S256x2048 where
  lhsContracting := [0]
  rhsContracting := [0]
  lhsNonContracting := [1]
  rhsNonContracting := [1]
  lhsBatch := []
  rhsBatch := []
  wf := dot_S256x256_S256x2048_S256x2048_0_0_1_1_n_n_wf

abbrev spec0_0 : Pipeline.WinSpec sig grid0.rank :=
  Pipeline.WinSpec.ofSpec (Memref.whole main_arg0) S4x256x2048.size reads0_0 false false 2 stage0_0 sem0_0 nbuf0_0 hstage0_0

abbrev spec0_1 : Pipeline.WinSpec sig grid0.rank :=
  Pipeline.WinSpec.ofSpec (Memref.whole main_v1) S8x256x256.size reads0_1 false true 1 stage0_1 sem0_1 nbuf0_1 hstage0_1

abbrev spec0_2 : Pipeline.WinSpec sig grid0.rank :=
  Pipeline.WinSpec.ofSpec (Memref.whole main_v2) S4x256x2048.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x256x2048 : Shape := ⟨3, ![128, 256, 2048]⟩
abbrev S128 : Shape := ⟨1, ![128]⟩
abbrev S8x256x256 : Shape := ⟨3, ![8, 256, 256]⟩
abbrev S_ : Shape := ⟨0, ![]⟩
abbrev S128x1 : Shape := ⟨2, ![128, 1]⟩
abbrev S128x256x256 : Shape := ⟨3, ![128, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S128x256x2048, .f32⟩
  | .hbm, ⟨1, _⟩ => ⟨S128, .i32⟩
  | .hbm, ⟨2, _⟩ => ⟨S8x256x256, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128x256x256, .f32⟩
  | .hbm, ⟨12, _⟩ => ⟨S128x256x2048, .f32⟩
  | _, _ => ⟨S128x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  gather_S8x256x256_S128x1_S128x256x256_12_0_n_n_0_1_1256256_wf : GatherDims.WF S8x256x256 S128x1 S128x256x256 [1, 2] [0] [] [0] [] 1 ![1, 256, 256]
  dot_S128x256x256_S128x256x2048_S128x256x2048_1_1_2_2_0_0_wf : DotDims.WF S128x256x256 S128x256x2048 S128x256x2048 [1] [1] [2] [2] [0] [0]

variable [Facts₀]

def gather_S8x256x256_S128x1_S128x256x256_12_0_n_n_0_1_1256256 : GatherDims S8x256x256 S128x1 S128x256x256 where
  offsetDims := [1, 2]
  collapsedSliceDims := [0]
  operandBatchingDims := []
  startIndicesBatchingDims := []
  startIndexMap := [0]
  indexVectorDim := 1
  sliceSizes := ![1, 256, 256]
  wf := gather_S8x256x256_S128x1_S128x256x256_12_0_n_n_0_1_1256256_wf
def dot_S128x256x256_S128x256x2048_S128x256x2048_1_1_2_2_0_0 : DotDims S128x256x256 S128x256x2048 S128x256x2048 where
  lhsContracting := [1]
  rhsContracting := [1]
  lhsNonContracting := [2]
  rhsNonContracting := [2]
  lhsBatch := [0]
  rhsBatch := [0]
  wf := dot_S128x256x256_S128x256x2048_S128x256x2048_1_1_2_2_0_0_wf

class Facts : Prop extends Facts₀ where

variable [Facts]
-- ==== Proof.KB.Setup.lean ====
/-
  The kernel's program up to its one region, and what the region is entered with.

  @main clips the 128 subject ids into [0, 7] (a maximum with 0, a minimum with 7: the table the
  region prefetches into scalar memory), rounds the weight table to bf16, and launches ONE region
  over a grid of 32 points: point t is handed rows 4t … 4t+3 of x (window 0), the whole rounded
  weight table (window 1, the same block at every point), and writes rows 4t … 4t+3 of the result
  (window 2). This module fixes the contents every buffer holds when the region is entered (the
  nine host operations applied to the launch memory), the table's words among them, the pipeline
  pinned at those words, each window's block at a point, and how a run to the region's post gives
  the three argument arrays back unchanged.
-/
import proofs.«419144_j22454089023726_3_alg».proof.Proof.Gen.Kernel.Launch
import proofs.«419144_j22454089023726_3_alg».proof.Proof.Gen.Kernel.Skeleton
import proofs.«419144_j22454089023726_3_alg».proof.Proof.Gen.Kernel.Loops
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the nine host operations (two constants, the
    six of the clip, the rounding of the weights) applied in order to the launch memory. -/
abbrev V (c : Dev nD) (b : Ref sig .tc) : Buf (Elt F) ((c : Thread nD τ).loc b) :=
  StableHlo.after (List.flatten [hostOps0 (F := F), hostOps0_1, hostOps0_2]) (fun b => m (c, b)) b

/-- @main reduces to the region entered at those contents. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    ⟨hostOps0_sub, hostOps0_1_sub, hostOps0_2_sub⟩
    ⟨⟨rfl, rfl⟩, ⟨rfl, rfl, rfl, rfl, rfl, rfl⟩, rfl⟩
    fun c => (main_chain c).trans rfl

/-! ## The table of clipped subject ids -/

/-- The table's contents when the region is entered (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table: the pipeline's side condition on it is trivial. -/
abbrev adm : (pcfg0 (F := F)).Adm := ⟨tbl m, trivial⟩
/-- The pipeline at the table's contents. -/
abbrev cfgM : Pipeline.Cfg sig Λ₀ := cfg0 (adm m)

/-- The table as the body is handed it: its whole buffer in scalar memory. -/
abbrev tbM : Memref sig .tc .smem S128 .i32 := Memref.whole main_v0
abbrev htbM : tbM.IsWhole := Memref.isWhole_whole _

abbrev TbBuf (c : Dev nD) : Type := Buf (Elt F) (tbM.view.loc (c : Thread nD τ))
/-- The table held for reading only: half the full share (the pipeline keeps the other half). -/
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the pipeline passes it to the body. -/
abbrev ms0 (t : Fin (cfgM m).N) : Memref sig .tc .vmem S4x256x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S8x256x256 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4x256x2048 .f32 := spec0_2.stage ((cfgM m).slots t 2)
abbrev hs2 (t : Fin (cfgM m).N) : (ms2 m t).IsWhole := hstage0_2 (((cfgM m).slots t 2).cast nbuf0_2)

/-- The body's call at point `t`: the kernel function at the point's coordinates, the table, and
    the three current staging memrefs. -/
abbrev bodyAt (t : Fin (cfgM m).N) : Prog (TpuEff nD τ sig (Elt F) Λ₀ .tc) PUnit :=
  cc0__gather_matmul_kernel (grid0.coords t) tbM htbM (ms0 m t) (hs0 m t) (ms1 m t) (hs1 m t) (ms2 m t) (hs2 m t)

end Cert.Kernel.Hand

end
-- ==== Proof.KB.Body.lean ====
/-
  The kernel body at one grid point.

  The body is a loop of four trips. Trip k reads the clipped subject id of batch row 4·i + k from the
  table in scalar memory, loads the weight slab that id names (one [256, 256] matrix of the eight),
  loads slab k of the point's x block ([256, 2048]), multiplies them contracting the channel axis,
  and stores the product over slab k of the point's output block. The load of the weight slab is in
  range because every word of the table lies in 0 … 7 (`Chk`). After the four trips the output block
  is, slab by slab, the product for the batch row of that slab: ONE function of the table, the
  weights and the x block (`outBlk`), whatever the block held before.
-/
import proofs.«419144_j22454089023726_3_alg».proof.Proof.KB.Setup
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S4x256x2048 .f32) (harg2 : arg2.IsWhole)
  (arg3 : Memref sig .tc .vmem S8x256x256 .bf16) (harg3 : arg3.IsWhole)
  (arg4 : Memref sig .tc .vmem S4x256x2048 .f32) (harg4 : arg4.IsWhole)
  (x0 : Vec F S4x256x2048 .f32) (w0 : Vec F S8x256x256 .bf16) (xt : TbBuf (F := F) c)

/-- The subject id trip `k` reads: the table's word at row 4·i + k. -/
def word (k : Fin k0_t1_loop.trips) : Elt F .i32 :=
  tbM.view.readAt (Elt F) (Rect.unit (s := S128) (k0_off1 i k) S1.size (k0_off1_inb i k)).toLoadRect xt
    (Shape.Idx.first (numel1_S1.symm ▸ Nat.one_pos))

/-- Every id the point reads names a slab inside the weight table. -/
def Chk : Prop := ∀ k : Fin k0_t1_loop.trips, k0_chk1 (word c i xt k)

variable (hchk : Chk c i xt)

/-- What trip `k` stores: the product of the weight slab its id names and slab `k` of the x block. -/
def pay (k : Fin k0_t1_loop.trips) : FVec F S1x256x2048 .f32 :=
  k0_pay1
    (arg3.view.readAt (Elt F) (Rect.unit (s := S8x256x256) (k0_off2 (word c i xt k)) S1x256x256.size (k0_off2_inb _ (hchk k))).toLoadRect (harg3.unread w0))
    (arg2.view.readAt (Elt F) (Rect.unit (s := S4x256x2048) (k0_off3 k) S1x256x2048.size (k0_off3_inb k)).toLoadRect (harg2.unread x0))

/-- Trip `k`'s store: that product over slab `k` of the output block. -/
def piece (k : Fin k0_t1_loop.trips) : View.Piece (Elt F) S4x256x2048 .f32 :=
  ⟨Rect.unit (s := S4x256x2048) (k0_off3 k) S1x256x2048.size (k0_off3_inb k), pay c i arg2 harg2 arg3 harg3 x0 w0 xt hchk k⟩

/-- The stores of the trips before trip `n`, the last first. -/
def pieces : ℕ → List (View.Piece (Elt F) S4x256x2048 .f32)
  | 0 => []
  | n + 1 => if h : n < k0_t1_loop.trips then piece c i arg2 harg2 arg3 harg3 x0 w0 xt hchk ⟨n, h⟩ :: pieces n else pieces n

theorem pieces_succ (k : Fin k0_t1_loop.trips) :
    pieces c i arg2 harg2 arg3 harg3 x0 w0 xt hchk (k.val + 1)
      = piece c i arg2 harg2 arg3 harg3 x0 w0 xt hchk k :: pieces c i arg2 harg2 arg3 harg3 x0 w0 xt hchk k.val := by
  rw [pieces, dif_pos k.isLt]

/-- Before trip `n`: the table and the two input buffers as they were, the output buffer with the
    stores of the trips before `n` over what it held at the loop's start. -/
def inv (f4 : arg4.view.ty.Contents (Elt F)) (n : ℕ) : sProp 𝕄 :=
  iprop(tbPt c xt
    ∗ (arg2.view.loc (c : Thread nD τ) ↦[arg2.view.set]{fullShare} harg2.unread x0)
    ∗ (arg3.view.loc (c : Thread nD τ) ↦[arg3.view.set]{fullShare} harg3.unread w0)
    ∗ (arg4.view.loc (c : Thread nD τ) ↦[arg4.view.set]{fullShare}
        arg4.view.writes (Elt F) f4 (pieces c i arg2 harg2 arg3 harg3 x0 w0 xt hchk n)))

set_option maxHeartbeats 1000000 in
/-- One trip takes the invariant to the next trip's. -/
theorem trip_step (f4 : arg4.view.ty.Contents (Elt F)) (E : Set ℕ) (k : Fin k0_t1_loop.trips) (u : Unit) :
    inv c i arg2 harg2 arg3 harg3 arg4 x0 w0 xt hchk f4 k.val
      ⊢ wp frame (wpE (defs₀ (F := F)) Variants.none c none) E
          (k0_t1_body i tbM htbM arg2 harg2 arg3 harg3 arg4 harg4 k u)
          (fun _ => inv c i arg2 harg2 arg3 harg3 arg4 x0 w0 xt hchk f4 (k.val + 1)) := by
  unfold inv
  rw [pieces_succ]
  unfold k0_t1_body
  iintro ⟨HT, H2, H3, H4⟩
  sl_exec (disch := sl_exact (hchk k))
  sl_step
  isplitl [HT]; · iexact HT
  isplitl [H2]; · iexact H2
  isplitl [H3]; · iexact H3
  iexact H4

set_option maxHeartbeats 1000000 in
/-- The whole body: from the table, the two inputs' buffers at their blocks and the output's buffer at
    anything, the four trips run and leave the output's buffer with the four stores written. -/
theorem kernelRun (f4 : arg4.view.ty.Contents (Elt F)) (E : Set ℕ) (K : PUnit → sProp 𝕄) :
    iprop(inv c i arg2 harg2 arg3 harg3 arg4 x0 w0 xt hchk f4 0
        ∗ (inv c i arg2 harg2 arg3 harg3 arg4 x0 w0 xt hchk f4 k0_t1_loop.trips -∗ K ⟨⟩))
      ⊢ wp frame (wpE (defs₀ (F := F)) Variants.none c none) E
          (cc0__gather_matmul_kernel i tbM htbM arg2 harg2 arg3 harg3 arg4 harg4) K := by
  simp only [cc0__gather_matmul_kernel_eq_skeleton]; unfold cc0__gather_matmul_kernel_skel
  iintro ⟨HI, HK⟩
  iapply (Scf.wp_for_bind frame (wpE (defs₀ (F := F)) Variants.none c none) E k0_t1_loop.lb k0_t1_loop.ub k0_t1_loop.st k0_t1_ok ()
    (k0_t1_body i tbM htbM arg2 harg2 arg3 harg3 arg4 harg4)
    (fun n _ => inv c i arg2 harg2 arg3 harg3 arg4 x0 w0 xt hchk f4 n)
    (fun k u => trip_step c i arg2 harg2 arg3 harg3 arg4 harg4 x0 w0 xt hchk f4 E k u)) $$ HI
  iintro %u HI
  sl_step
  iapply HK
  iexact HI

/-! ### What the four stores leave: one function of the block index -/

/-- The loop makes four trips. -/
theorem trips_eq : k0_t1_loop.trips = 4 := by decide

/-- The slab (trip) a block index lies in: its leading coordinate. -/
def slabOf (y : S4x256x2048.Idx) : Fin k0_t1_loop.trips := ⟨(y 0).val, by rw [trips_eq]; exact (y 0).isLt⟩

/-- A block index inside its slab. -/
def inSlab (y : S4x256x2048.Idx) : S1x256x2048.Idx :=
  ValueIdx.ix3 (0 : Fin 1) (⟨(y 1).val, (y 1).isLt⟩ : Fin 256) (⟨(y 2).val, (y 2).isLt⟩ : Fin 2048)

/-- The output block after the body: at each index, the product stored by the trip of its slab. -/
def outBlk : Vec F S4x256x2048 .f32 :=
  fun y => pay c i arg2 harg2 arg3 harg3 x0 w0 xt hchk (slabOf y) (inSlab y)

/-- Trip `k`'s store holds that function on slab `k`. -/
theorem piece_agrees (k : Fin k0_t1_loop.trips) (x : (piece c i arg2 harg2 arg3 harg3 x0 w0 xt hchk k).1.shape.Idx) :
    (piece c i arg2 harg2 arg3 harg3 x0 w0 xt hchk k).2 x
      = outBlk c i arg2 harg2 arg3 harg3 x0 w0 xt hchk ((piece c i arg2 harg2 arg3 harg3 x0 w0 xt hchk k).1.emb x) := by
  unfold outBlk
  have hk : slabOf ((piece c i arg2 harg2 arg3 harg3 x0 w0 xt hchk k).1.emb x) = k := by
    apply Fin.ext
    show (((piece c i arg2 harg2 arg3 harg3 x0 w0 xt hchk k).1.emb x) 0 : ℕ) = k.val
    rw [Rect.emb_apply]
    show k0_off3 k 0 + 1 * (x 0 : ℕ) = k.val
    rw [k0_off3_eq]
    have : (x 0 : ℕ) < 1 := (x 0).isLt
    show k.val + 1 * (x 0 : ℕ) = k.val
    omega
  have hs : inSlab ((piece c i arg2 harg2 arg3 harg3 x0 w0 xt hchk k).1.emb x) = x := by
    funext a
    apply Fin.ext
    match a with
    | ⟨0, _⟩ =>
      have : (x 0 : ℕ) < 1 := (x 0).isLt
      show (0 : ℕ) = (x 0 : ℕ)
      omega
    | ⟨1, _⟩ =>
      show (((piece c i arg2 harg2 arg3 harg3 x0 w0 xt hchk k).1.emb x) 1 : ℕ) = (x 1 : ℕ)
      rw [Rect.emb_apply]
      show k0_off3 k 1 + 1 * (x 1 : ℕ) = (x 1 : ℕ)
      rw [k0_off3_eq]
      show 0 + 1 * (x 1 : ℕ) = (x 1 : ℕ)
      omega
    | ⟨2, _⟩ =>
      show (((piece c i arg2 harg2 arg3 harg3 x0 w0 xt hchk k).1.emb x) 2 : ℕ) = (x 2 : ℕ)
      rw [Rect.emb_apply]
      show k0_off3 k 2 + 1 * (x 2 : ℕ) = (x 2 : ℕ)
      rw [k0_off3_eq]
      show 0 + 1 * (x 2 : ℕ) = (x 2 : ℕ)
      omega
  rw [hk, hs]
  rfl

/-- Every store before trip `n` holds that function where it writes. -/
theorem pieces_agree : ∀ (n : ℕ), ∀ p ∈ pieces c i arg2 harg2 arg3 harg3 x0 w0 xt hchk n, ∀ x : p.1.shape.Idx,
    p.2 x = outBlk c i arg2 harg2 arg3 harg3 x0 w0 xt hchk (p.1.emb x)
  | 0, p, hp, _ => absurd hp List.not_mem_nil
  | n + 1, p, hp, x => by
    rw [pieces] at hp
    split at hp
    · rcases List.mem_cons.mp hp with rfl | hp
      · exact piece_agrees c i arg2 harg2 arg3 harg3 x0 w0 xt hchk _ x
      · exact pieces_agree n p hp x
    · exact pieces_agree n p hp x

/-- Trip `k`'s store is among those before any later trip. -/
theorem piece_mem (k : Fin k0_t1_loop.trips) : ∀ n, k.val < n →
    piece c i arg2 harg2 arg3 harg3 x0 w0 xt hchk k ∈ pieces c i arg2 harg2 arg3 harg3 x0 w0 xt hchk n
  | 0, h => absurd h (Nat.not_lt_zero _)
  | n + 1, h => by
    rw [pieces]
    by_cases hn : n < k0_t1_loop.trips
    · rw [dif_pos hn]
      rcases Nat.lt_succ_iff_lt_or_eq.mp h with h' | h'
      · exact List.mem_cons_of_mem _ (piece_mem k n h')
      · have : k = ⟨n, hn⟩ := Fin.ext h'
        subst this
        exact List.mem_cons_self
    · rw [dif_neg hn]
      exact piece_mem k n (by have := k.isLt; omega)

/-- The four stores cover the block: an index lies in the store of its slab's trip. -/
theorem pieces_cover (y : S4x256x2048.Idx) :
    ∃ p ∈ pieces c i arg2 harg2 arg3 harg3 x0 w0 xt hchk k0_t1_loop.trips, y ∈ p.1.set := by
  refine ⟨piece c i arg2 harg2 arg3 harg3 x0 w0 xt hchk (slabOf y), piece_mem c i arg2 harg2 arg3 harg3 x0 w0 xt hchk _ _ (slabOf y).isLt, ?_⟩
  show y ∈ (Rect.unit (s := S4x256x2048) (k0_off3 (slabOf y)) S1x256x2048.size (k0_off3_inb (slabOf y))).set
  rw [Rect.mem_set_unit, k0_off3_eq]
  intro a
  match a with
  | ⟨0, _⟩ => exact ⟨le_refl _, Nat.lt_succ_self _⟩
  | ⟨1, _⟩ =>
    have h1 : (y 1 : ℕ) < 256 := (y 1).isLt
    exact ⟨Nat.zero_le _, by show (y 1 : ℕ) < 0 + 256; omega⟩
  | ⟨2, _⟩ =>
    have h2 : (y 2 : ℕ) < 2048 := (y 2).isLt
    exact ⟨Nat.zero_le _, by show (y 2 : ℕ) < 0 + 2048; omega⟩

/-- So, whatever the output buffer held before, after the four trips it reads that function. -/
theorem read_out (f4 : arg4.view.ty.Contents (Elt F)) :
    arg4.view.read (Elt F) (arg4.view.writes (Elt F) f4 (pieces c i arg2 harg2 arg3 harg3 x0 w0 xt hchk k0_t1_loop.trips))
      = outBlk c i arg2 harg2 arg3 harg3 x0 w0 xt hchk :=
  funext fun y => View.read_writes_apply_of_pieces arg4.view f4 (outBlk c i arg2 harg2 arg3 harg3 x0 w0 xt hchk) _
    (pieces_agree c i arg2 harg2 arg3 harg3 x0 w0 xt hchk _) y (pieces_cover c i arg2 harg2 arg3 harg3 x0 w0 xt hchk y)

set_option maxHeartbeats 1000000 in
/-- The body, stated over what the memrefs READ: from the table, the inputs' memrefs at their blocks and
    the output's at anything, to the same with the output's memref reading `outBlk`. -/
theorem kernelRun_owns (E : Set ℕ) (K : PUnit → sProp 𝕄) :
    iprop(tbPt c xt ∗ owns (c : Thread nD τ) arg2 fullShare x0 ∗ owns (c : Thread nD τ) arg3 fullShare w0
        ∗ (∃ d, owns (c : Thread nD τ) arg4 fullShare d)
        ∗ (iprop(tbPt c xt ∗ owns (c : Thread nD τ) arg2 fullShare x0 ∗ owns (c : Thread nD τ) arg3 fullShare w0
            ∗ owns (c : Thread nD τ) arg4 fullShare (outBlk c i arg2 harg2 arg3 harg3 x0 w0 xt hchk)) -∗ K ⟨⟩))
      ⊢ wp frame (wpE (defs₀ (F := F)) Variants.none c none) E
          (cc0__gather_matmul_kernel i tbM htbM arg2 harg2 arg3 harg3 arg4 harg4) K := by
  unfold owns
  iintro ⟨HT, ⟨%f2, %hf2, H2⟩, ⟨%f3, %hf3, H3⟩, ⟨%d, %f4, -, H4⟩, HK⟩
  obtain rfl := harg2.eq_unread hf2
  obtain rfl := harg3.eq_unread hf3
  iapply (kernelRun c i arg2 harg2 arg3 harg3 arg4 harg4 x0 w0 xt hchk f4 E K)
  isplitl [HT H2 H3 H4]
  · unfold inv
    isplitl [HT]; · iexact HT
    isplitl [H2]; · iexact H2
    isplitl [H3]; · iexact H3
    iexact H4
  · unfold inv
    iintro ⟨HT, H2, H3, H4⟩
    iapply HK
    isplitl [HT]; · iexact HT
    isplitl [H2]
    · iexists _; isplitr; · ipureintro; exact harg2.read_unread _
      iexact H2
    isplitl [H3]
    · iexists _; isplitr; · ipureintro; exact harg3.read_unread _
      iexact H3
    iexists _; isplitr
    · ipureintro; exact read_out c i arg2 harg2 arg3 harg3 arg4 x0 w0 xt hchk f4
    iexact H4

end Body

end Cert.Kernel.Hand

end
-- ==== Proof.KB.Table.lean ====
/-
  What the host operations leave for the region, and why every id the body reads is in range.

  The nine host operations write the clip of the subject ids — min(7, max(0, s)) word by word — into
  the table, the weights rounded to bf16 into window 1's array, and touch none of the three
  arguments. A clipped word lies in 0 … 7 whatever s is, so the weight slab it names is one of the
  eight: the side condition the body assumes of each word it reads holds at every point, for every
  input. For ids already in 0 … 7 the clip changes nothing.
-/
import proofs.«419144_j22454089023726_3_alg».proof.Proof.KB.Body
import Idealize.ShloMosaic.Lib.StableHlo.Run
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-! ## The buffers at the region's entry -/

/-- The table holds the clip of the subject ids. -/
theorem V_tbl (c : Dev nD) : (V m c main_v0 : S128.Idx → Elt F .i32)
    = minsi (broadcastInDim S128 ![] bcast_S_S128 (constantI S_ 32 7#32))
        (maxsi (broadcastInDim S128 ![] bcast_S_S128 (constantI S_ 32 0#32)) (m ((c : Thread nD τ).loc main_arg1))) := by
  dsimp only [V]
  simp only [hostOps0, hostOps0_1, hostOps0_2, List.flatten_cons, List.flatten_nil, List.append_nil, List.cons_append, List.nil_append]
  after_results
  rfl

/-- Window 1's array holds the weights rounded to bf16. -/
theorem V_w (c : Dev nD) : (V m c main_v1 : S8x256x256.Idx → Elt F .bf16)
    = truncf .bf16 (m ((c : Thread nD τ).loc main_arg2)) bitsLt_bf16_f32 := by
  dsimp only [V]
  simp only [hostOps0, hostOps0_1, hostOps0_2, List.flatten_cons, List.flatten_nil, List.append_nil, List.cons_append, List.nil_append]
  after_results

/-- No host operation writes an argument. -/
theorem V_arg0 (c : Dev nD) : V m c main_arg0 = m ((c : Thread nD τ).loc main_arg0) := by
  dsimp only [V]
  simp only [hostOps0, hostOps0_1, hostOps0_2, List.flatten_cons, List.flatten_nil, List.append_nil, List.cons_append, List.nil_append]
  after_results
theorem V_arg1 (c : Dev nD) : V m c main_arg1 = m ((c : Thread nD τ).loc main_arg1) := by
  dsimp only [V]
  simp only [hostOps0, hostOps0_1, hostOps0_2, List.flatten_cons, List.flatten_nil, List.append_nil, List.cons_append, List.nil_append]
  after_results
theorem V_arg2 (c : Dev nD) : V m c main_arg2 = m ((c : Thread nD τ).loc main_arg2) := by
  dsimp only [V]
  simp only [hostOps0, hostOps0_1, hostOps0_2, List.flatten_cons, List.flatten_nil, List.append_nil, List.cons_append, List.nil_append]
  after_results

/-! ## A clipped word is in range -/

/-- The clip of any word into [0, 7], as an unsigned number, is at most 7. -/
theorem clip_toNat_le (s : BitVec 32) : (IntOp.minsi 7#32 (IntOp.maxsi 0#32 s)).toNat ≤ 7 := by
  unfold IntOp.minsi IntOp.maxsi
  by_cases h1 : s.slt 0#32 = true
  · rw [if_pos h1]
    have h2 : (7#32 : BitVec 32).slt 0#32 = false := by decide
    rw [h2]
    decide
  · rw [if_neg h1]
    by_cases h3 : (7#32 : BitVec 32).slt s = true
    · rw [if_pos h3]; decide
    · rw [if_neg h3]
      simp only [BitVec.slt, decide_eq_true_eq, not_lt] at h1 h3
      have e7 : (7#32 : BitVec 32).toInt = 7 := by decide
      have e0 : (0#32 : BitVec 32).toInt = 0 := by decide
      rw [e7] at h3
      rw [e0] at h1
      have := BitVec.toInt_eq_toNat_cond s
      have hlt := s.isLt
      split at this <;> omega

/-- The clip of a word already in 0 … 7 is the word. -/
theorem clip_of_lt {s : BitVec 32} (h : s.toNat < 8) : IntOp.minsi 7#32 (IntOp.maxsi 0#32 s) = s := by
  unfold IntOp.minsi IntOp.maxsi
  have hi : s.toInt = s.toNat := by
    have := BitVec.toInt_eq_toNat_cond s
    split at this <;> omega
  have e7 : (7#32 : BitVec 32).toInt = 7 := by decide
  have e0 : (0#32 : BitVec 32).toInt = 0 := by decide
  have h1 : ¬ (s.slt 0#32 = true) := by
    simp only [BitVec.slt, decide_eq_true_eq, not_lt, e0]; omega
  rw [if_neg h1]
  have h3 : ¬ ((7#32 : BitVec 32).slt s = true) := by
    simp only [BitVec.slt, decide_eq_true_eq, not_lt, e7]; omega
  rw [if_neg h3]

/-- The side condition the body assumes of a word holds of every word at most 7. -/
theorem chk_of_le {v : BitVec 32} (h : v.toNat ≤ 7) : k0_chk1 v := by
  intro a
  match a with
  | ⟨0, _⟩ => show (Scalar.indexCast v).toNat + 1 ≤ 8; unfold Scalar.indexCast; omega
  | ⟨1, _⟩ => show 0 + 256 ≤ 256; omega
  | ⟨2, _⟩ => show 0 + 256 ≤ 256; omega

/-! ## The table's words -/

/-- Each word of the table is the clip of the id in that place. -/
theorem tbl_apply (y : S128.Idx) :
    (tbl m 0 : S128.Idx → Elt F .i32) y = IntOp.minsi 7#32 (IntOp.maxsi 0#32 (m (((0 : Dev nD) : Thread nD τ).loc main_arg1) y)) := by
  show (V m 0 main_v0 : S128.Idx → Elt F .i32) y = _
  rw [V_tbl]
  show IntOp.minsi _ (IntOp.maxsi _ _) = _
  rw [broadcastInDim_apply _ bcast_S_S128 (constantI S_ 32 7#32) y (fun a => a.elim0) (fun a => a.elim0),
    broadcastInDim_apply _ bcast_S_S128 (constantI S_ 32 0#32) y (fun a => a.elim0) (fun a => a.elim0)]
  rfl

/-- At every point every id the body reads names a slab inside the weight table. -/
theorem tbl_chk (c : Dev nD) (i : grid0.Coords) : Chk c i (tbl m 0) := fun k => by
  show k0_chk1 ((tbl m 0 : S128.Idx → Elt F .i32) _)
  rw [tbl_apply]
  exact chk_of_le (clip_toNat_le _)

/-- With every id in 0 … 7 the table is the ids themselves. -/
theorem tbl_of_lt (hs : ∀ y : S128.Idx, (m (((0 : Dev nD) : Thread nD τ).loc main_arg1) y).toNat < 8) :
    (tbl m 0 : S128.Idx → Elt F .i32) = m (((0 : Dev nD) : Thread nD τ).loc main_arg1) :=
  funext fun (y : S128.Idx) => (tbl_apply m y).trans (clip_of_lt (hs y))

end Cert.Kernel.Hand

end
-- ==== Proof.KB.Run.lean ====
/-
  The kernel's proof data, the body's obligation at every point, and the run of @main.

  At point t the two input windows' staging buffers hold rows 4t … 4t+3 of x and the whole rounded
  weight table; the body leaves them in place and leaves the output window's buffer at the four
  products (`outBlk` of those blocks and the table). With that as the data of the one pipeline, the
  library's launch theorem gives the run of @main: every weakly fair execution ends, nothing faults,
  the result array holds what the pipeline writes back point by point, and every other unscoped
  buffer holds what it held at the region's entry — in particular the three arguments are unchanged.
-/
import proofs.«419144_j22454089023726_3_alg».proof.Proof.KB.Table

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output window's buffer holds after each point -/

/-- After the body at point `t`: the four products of the point's x block and the weight slabs the
    table's words 4t … 4t+3 name. -/
def outAt (c : Dev nD) (t : Fin (cfgM m).N) : Vec F S4x256x2048 .f32 :=
  outBlk c (grid0.coords t) (ms0 m t) (hs0 m t) (ms1 m t) (hs1 m t) (iblk m c 0 t) (iblk m c 1 t) (tbl m 0)
    (tbl_chk m c (grid0.coords t))

/-! ## The proof data -/

/-- The one pipeline's data on core `c`: the arrays as the region finds them; after the body each input's
    buffer at its block and the output's at `outAt`; the invariant the scoped rest, the generator register
    and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outAt m c t := by dsimp only [dats]; try rfl

/-- Each input's current staging buffer holds its block at every point, fetched there or not: unfetched,
    the block index has not moved and the body left the block in place. -/
theorem before0 (c : Dev nD) (t : Fin (cfgM m).N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the body's run applies; the
    invariant passes through, the table's half lent to the run and taken back; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  unfold outAt
  iintro ⟨⟨HΦ, HT⟩, Ho, ⟨%d0, H0⟩, ⟨%d1, H1⟩, ⟨%d2, H2⟩⟩
  iapply (kernelRun_owns c (grid0.coords t) (ms0 m t) (hs0 m t) (ms1 m t) (hs1 m t) (ms2 m t) (hs2 m t)
    (iblk m c 0 t) (iblk m c 1 t) (tbl m 0) (tbl_chk m c (grid0.coords t)) Set.univ _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting;
    in the final state every array of the pipeline holds what the proof data compute and every other
    unscoped buffer what the region found in it. -/
theorem run_main : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The three argument arrays end as they were launched: x is an input window's array, which the pipeline
    never writes; the ids and the weights bypass the region; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_arg0 m c))),
      ((h c).2 main_arg1 (by decide : main_arg1 ∈ Pipeline.restRefs sig spec0)).trans (V_arg1 m c),
      ((h c).2 main_arg2 (by decide : main_arg2 ∈ Pipeline.restRefs sig spec0)).trans (V_arg2 m c)⟩) (run_main m ρ)

end Cert.Kernel.Hand

end
-- ==== Proof.KI.Setup.lean ====
/-
  The kernel's program up to its one region, and what the region is entered with.

  @main clips the 128 subject ids into [0, 7] (a maximum with 0, a minimum with 7: the table the
  region prefetches into scalar memory), rounds the weight table to bf16, and launches ONE region
  over a grid of 32 points: point t is handed rows 4t … 4t+3 of x (window 0), the whole rounded
  weight table (window 1, the same block at every point), and writes rows 4t … 4t+3 of the result
  (window 2). This module fixes the contents every buffer holds when the region is entered (the
  nine host operations applied to the launch memory), the table's words among them, the pipeline
  pinned at those words, each window's block at a point, and how a run to the region's post gives
  the three argument arrays back unchanged.
-/
import proofs.«419144_j22454089023726_3_alg».proof.Proof.Gen.KernelIdeal.Launch
import proofs.«419144_j22454089023726_3_alg».proof.Proof.Gen.KernelIdeal.Skeleton
import proofs.«419144_j22454089023726_3_alg».proof.Proof.Gen.KernelIdeal.Loops
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the nine host operations (two constants, the
    six of the clip, the rounding of the weights) applied in order to the launch memory. -/
abbrev V (c : Dev nD) (b : Ref sig .tc) : Buf (Elt F) ((c : Thread nD τ).loc b) :=
  StableHlo.after (List.flatten [hostOps0 (F := F), hostOps0_1, hostOps0_2]) (fun b => m (c, b)) b

/-- @main reduces to the region entered at those contents. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    ⟨hostOps0_sub, hostOps0_1_sub, hostOps0_2_sub⟩
    ⟨⟨rfl, rfl⟩, ⟨rfl, rfl, rfl, rfl, rfl, rfl⟩, rfl⟩
    fun c => (main_chain c).trans rfl

/-! ## The table of clipped subject ids -/

/-- The table's contents when the region is entered (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table: the pipeline's side condition on it is trivial. -/
abbrev adm : (pcfg0 (F := F)).Adm := ⟨tbl m, trivial⟩
/-- The pipeline at the table's contents. -/
abbrev cfgM : Pipeline.Cfg sig Λ₀ := cfg0 (adm m)

/-- The table as the body is handed it: its whole buffer in scalar memory. -/
abbrev tbM : Memref sig .tc .smem S128 .i32 := Memref.whole main_v0
abbrev htbM : tbM.IsWhole := Memref.isWhole_whole _

abbrev TbBuf (c : Dev nD) : Type := Buf (Elt F) (tbM.view.loc (c : Thread nD τ))
/-- The table held for reading only: half the full share (the pipeline keeps the other half). -/
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the pipeline passes it to the body. -/
abbrev ms0 (t : Fin (cfgM m).N) : Memref sig .tc .vmem S4x256x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S8x256x256 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4x256x2048 .f32 := spec0_2.stage ((cfgM m).slots t 2)
abbrev hs2 (t : Fin (cfgM m).N) : (ms2 m t).IsWhole := hstage0_2 (((cfgM m).slots t 2).cast nbuf0_2)

/-- The body's call at point `t`: the kernel function at the point's coordinates, the table, and
    the three current staging memrefs. -/
abbrev bodyAt (t : Fin (cfgM m).N) : Prog (TpuEff nD τ sig (Elt F) Λ₀ .tc) PUnit :=
  cc0__gather_matmul_kernel (grid0.coords t) tbM htbM (ms0 m t) (hs0 m t) (ms1 m t) (hs1 m t) (ms2 m t) (hs2 m t)

end Cert.KernelIdeal.Hand

end
-- ==== Proof.KI.Body.lean ====
/-
  The kernel body at one grid point.

  The body is a loop of four trips. Trip k reads the clipped subject id of batch row 4·i + k from the
  table in scalar memory, loads the weight slab that id names (one [256, 256] matrix of the eight),
  loads slab k of the point's x block ([256, 2048]), multiplies them contracting the channel axis,
  and stores the product over slab k of the point's output block. The load of the weight slab is in
  range because every word of the table lies in 0 … 7 (`Chk`). After the four trips the output block
  is, slab by slab, the product for the batch row of that slab: ONE function of the table, the
  weights and the x block (`outBlk`), whatever the block held before.
-/
import proofs.«419144_j22454089023726_3_alg».proof.Proof.KI.Setup
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S4x256x2048 .f32) (harg2 : arg2.IsWhole)
  (arg3 : Memref sig .tc .vmem S8x256x256 .bf16) (harg3 : arg3.IsWhole)
  (arg4 : Memref sig .tc .vmem S4x256x2048 .f32) (harg4 : arg4.IsWhole)
  (x0 : Vec F S4x256x2048 .f32) (w0 : Vec F S8x256x256 .bf16) (xt : TbBuf (F := F) c)

/-- The subject id trip `k` reads: the table's word at row 4·i + k. -/
def word (k : Fin k0_t1_loop.trips) : Elt F .i32 :=
  tbM.view.readAt (Elt F) (Rect.unit (s := S128) (k0_off1 i k) S1.size (k0_off1_inb i k)).toLoadRect xt
    (Shape.Idx.first (numel1_S1.symm ▸ Nat.one_pos))

/-- Every id the point reads names a slab inside the weight table. -/
def Chk : Prop := ∀ k : Fin k0_t1_loop.trips, k0_chk1 (word c i xt k)

variable (hchk : Chk c i xt)

/-- What trip `k` stores: the product of the weight slab its id names and slab `k` of the x block. -/
def pay (k : Fin k0_t1_loop.trips) : FVec F S1x256x2048 .f32 :=
  k0_pay1
    (arg3.view.readAt (Elt F) (Rect.unit (s := S8x256x256) (k0_off2 (word c i xt k)) S1x256x256.size (k0_off2_inb _ (hchk k))).toLoadRect (harg3.unread w0))
    (arg2.view.readAt (Elt F) (Rect.unit (s := S4x256x2048) (k0_off3 k) S1x256x2048.size (k0_off3_inb k)).toLoadRect (harg2.unread x0))

/-- Trip `k`'s store: that product over slab `k` of the output block. -/
def piece (k : Fin k0_t1_loop.trips) : View.Piece (Elt F) S4x256x2048 .f32 :=
  ⟨Rect.unit (s := S4x256x2048) (k0_off3 k) S1x256x2048.size (k0_off3_inb k), pay c i arg2 harg2 arg3 harg3 x0 w0 xt hchk k⟩

/-- The stores of the trips before trip `n`, the last first. -/
def pieces : ℕ → List (View.Piece (Elt F) S4x256x2048 .f32)
  | 0 => []
  | n + 1 => if h : n < k0_t1_loop.trips then piece c i arg2 harg2 arg3 harg3 x0 w0 xt hchk ⟨n, h⟩ :: pieces n else pieces n

theorem pieces_succ (k : Fin k0_t1_loop.trips) :
    pieces c i arg2 harg2 arg3 harg3 x0 w0 xt hchk (k.val + 1)
      = piece c i arg2 harg2 arg3 harg3 x0 w0 xt hchk k :: pieces c i arg2 harg2 arg3 harg3 x0 w0 xt hchk k.val := by
  rw [pieces, dif_pos k.isLt]

/-- Before trip `n`: the table and the two input buffers as they were, the output buffer with the
    stores of the trips before `n` over what it held at the loop's start. -/
def inv (f4 : arg4.view.ty.Contents (Elt F)) (n : ℕ) : sProp 𝕄 :=
  iprop(tbPt c xt
    ∗ (arg2.view.loc (c : Thread nD τ) ↦[arg2.view.set]{fullShare} harg2.unread x0)
    ∗ (arg3.view.loc (c : Thread nD τ) ↦[arg3.view.set]{fullShare} harg3.unread w0)
    ∗ (arg4.view.loc (c : Thread nD τ) ↦[arg4.view.set]{fullShare}
        arg4.view.writes (Elt F) f4 (pieces c i arg2 harg2 arg3 harg3 x0 w0 xt hchk n)))

set_option maxHeartbeats 1000000 in
/-- One trip takes the invariant to the next trip's. -/
theorem trip_step (f4 : arg4.view.ty.Contents (Elt F)) (E : Set ℕ) (k : Fin k0_t1_loop.trips) (u : Unit) :
    inv c i arg2 harg2 arg3 harg3 arg4 x0 w0 xt hchk f4 k.val
      ⊢ wp frame (wpE (defs₀ (F := F)) Variants.none c none) E
          (k0_t1_body i tbM htbM arg2 harg2 arg3 harg3 arg4 harg4 k u)
          (fun _ => inv c i arg2 harg2 arg3 harg3 arg4 x0 w0 xt hchk f4 (k.val + 1)) := by
  unfold inv
  rw [pieces_succ]
  unfold k0_t1_body
  iintro ⟨HT, H2, H3, H4⟩
  sl_exec (disch := sl_exact (hchk k))
  sl_step
  isplitl [HT]; · iexact HT
  isplitl [H2]; · iexact H2
  isplitl [H3]; · iexact H3
  iexact H4

set_option maxHeartbeats 1000000 in
/-- The whole body: from the table, the two inputs' buffers at their blocks and the output's buffer at
    anything, the four trips run and leave the output's buffer with the four stores written. -/
theorem kernelRun (f4 : arg4.view.ty.Contents (Elt F)) (E : Set ℕ) (K : PUnit → sProp 𝕄) :
    iprop(inv c i arg2 harg2 arg3 harg3 arg4 x0 w0 xt hchk f4 0
        ∗ (inv c i arg2 harg2 arg3 harg3 arg4 x0 w0 xt hchk f4 k0_t1_loop.trips -∗ K ⟨⟩))
      ⊢ wp frame (wpE (defs₀ (F := F)) Variants.none c none) E
          (cc0__gather_matmul_kernel i tbM htbM arg2 harg2 arg3 harg3 arg4 harg4) K := by
  simp only [cc0__gather_matmul_kernel_eq_skeleton]; unfold cc0__gather_matmul_kernel_skel
  iintro ⟨HI, HK⟩
  iapply (Scf.wp_for_bind frame (wpE (defs₀ (F := F)) Variants.none c none) E k0_t1_loop.lb k0_t1_loop.ub k0_t1_loop.st k0_t1_ok ()
    (k0_t1_body i tbM htbM arg2 harg2 arg3 harg3 arg4 harg4)
    (fun n _ => inv c i arg2 harg2 arg3 harg3 arg4 x0 w0 xt hchk f4 n)
    (fun k u => trip_step c i arg2 harg2 arg3 harg3 arg4 harg4 x0 w0 xt hchk f4 E k u)) $$ HI
  iintro %u HI
  sl_step
  iapply HK
  iexact HI

/-! ### What the four stores leave: one function of the block index -/

/-- The loop makes four trips. -/
theorem trips_eq : k0_t1_loop.trips = 4 := by decide

/-- The slab (trip) a block index lies in: its leading coordinate. -/
def slabOf (y : S4x256x2048.Idx) : Fin k0_t1_loop.trips := ⟨(y 0).val, by rw [trips_eq]; exact (y 0).isLt⟩

/-- A block index inside its slab. -/
def inSlab (y : S4x256x2048.Idx) : S1x256x2048.Idx :=
  ValueIdx.ix3 (0 : Fin 1) (⟨(y 1).val, (y 1).isLt⟩ : Fin 256) (⟨(y 2).val, (y 2).isLt⟩ : Fin 2048)

/-- The output block after the body: at each index, the product stored by the trip of its slab. -/
def outBlk : Vec F S4x256x2048 .f32 :=
  fun y => pay c i arg2 harg2 arg3 harg3 x0 w0 xt hchk (slabOf y) (inSlab y)

/-- Trip `k`'s store holds that function on slab `k`. -/
theorem piece_agrees (k : Fin k0_t1_loop.trips) (x : (piece c i arg2 harg2 arg3 harg3 x0 w0 xt hchk k).1.shape.Idx) :
    (piece c i arg2 harg2 arg3 harg3 x0 w0 xt hchk k).2 x
      = outBlk c i arg2 harg2 arg3 harg3 x0 w0 xt hchk ((piece c i arg2 harg2 arg3 harg3 x0 w0 xt hchk k).1.emb x) := by
  unfold outBlk
  have hk : slabOf ((piece c i arg2 harg2 arg3 harg3 x0 w0 xt hchk k).1.emb x) = k := by
    apply Fin.ext
    show (((piece c i arg2 harg2 arg3 harg3 x0 w0 xt hchk k).1.emb x) 0 : ℕ) = k.val
    rw [Rect.emb_apply]
    show k0_off3 k 0 + 1 * (x 0 : ℕ) = k.val
    rw [k0_off3_eq]
    have : (x 0 : ℕ) < 1 := (x 0).isLt
    show k.val + 1 * (x 0 : ℕ) = k.val
    omega
  have hs : inSlab ((piece c i arg2 harg2 arg3 harg3 x0 w0 xt hchk k).1.emb x) = x := by
    funext a
    apply Fin.ext
    match a with
    | ⟨0, _⟩ =>
      have : (x 0 : ℕ) < 1 := (x 0).isLt
      show (0 : ℕ) = (x 0 : ℕ)
      omega
    | ⟨1, _⟩ =>
      show (((piece c i arg2 harg2 arg3 harg3 x0 w0 xt hchk k).1.emb x) 1 : ℕ) = (x 1 : ℕ)
      rw [Rect.emb_apply]
      show k0_off3 k 1 + 1 * (x 1 : ℕ) = (x 1 : ℕ)
      rw [k0_off3_eq]
      show 0 + 1 * (x 1 : ℕ) = (x 1 : ℕ)
      omega
    | ⟨2, _⟩ =>
      show (((piece c i arg2 harg2 arg3 harg3 x0 w0 xt hchk k).1.emb x) 2 : ℕ) = (x 2 : ℕ)
      rw [Rect.emb_apply]
      show k0_off3 k 2 + 1 * (x 2 : ℕ) = (x 2 : ℕ)
      rw [k0_off3_eq]
      show 0 + 1 * (x 2 : ℕ) = (x 2 : ℕ)
      omega
  rw [hk, hs]
  rfl

/-- Every store before trip `n` holds that function where it writes. -/
theorem pieces_agree : ∀ (n : ℕ), ∀ p ∈ pieces c i arg2 harg2 arg3 harg3 x0 w0 xt hchk n, ∀ x : p.1.shape.Idx,
    p.2 x = outBlk c i arg2 harg2 arg3 harg3 x0 w0 xt hchk (p.1.emb x)
  | 0, p, hp, _ => absurd hp List.not_mem_nil
  | n + 1, p, hp, x => by
    rw [pieces] at hp
    split at hp
    · rcases List.mem_cons.mp hp with rfl | hp
      · exact piece_agrees c i arg2 harg2 arg3 harg3 x0 w0 xt hchk _ x
      · exact pieces_agree n p hp x
    · exact pieces_agree n p hp x

/-- Trip `k`'s store is among those before any later trip. -/
theorem piece_mem (k : Fin k0_t1_loop.trips) : ∀ n, k.val < n →
    piece c i arg2 harg2 arg3 harg3 x0 w0 xt hchk k ∈ pieces c i arg2 harg2 arg3 harg3 x0 w0 xt hchk n
  | 0, h => absurd h (Nat.not_lt_zero _)
  | n + 1, h => by
    rw [pieces]
    by_cases hn : n < k0_t1_loop.trips
    · rw [dif_pos hn]
      rcases Nat.lt_succ_iff_lt_or_eq.mp h with h' | h'
      · exact List.mem_cons_of_mem _ (piece_mem k n h')
      · have : k = ⟨n, hn⟩ := Fin.ext h'
        subst this
        exact List.mem_cons_self
    · rw [dif_neg hn]
      exact piece_mem k n (by have := k.isLt; omega)

/-- The four stores cover the block: an index lies in the store of its slab's trip. -/
theorem pieces_cover (y : S4x256x2048.Idx) :
    ∃ p ∈ pieces c i arg2 harg2 arg3 harg3 x0 w0 xt hchk k0_t1_loop.trips, y ∈ p.1.set := by
  refine ⟨piece c i arg2 harg2 arg3 harg3 x0 w0 xt hchk (slabOf y), piece_mem c i arg2 harg2 arg3 harg3 x0 w0 xt hchk _ _ (slabOf y).isLt, ?_⟩
  show y ∈ (Rect.unit (s := S4x256x2048) (k0_off3 (slabOf y)) S1x256x2048.size (k0_off3_inb (slabOf y))).set
  rw [Rect.mem_set_unit, k0_off3_eq]
  intro a
  match a with
  | ⟨0, _⟩ => exact ⟨le_refl _, Nat.lt_succ_self _⟩
  | ⟨1, _⟩ =>
    have h1 : (y 1 : ℕ) < 256 := (y 1).isLt
    exact ⟨Nat.zero_le _, by show (y 1 : ℕ) < 0 + 256; omega⟩
  | ⟨2, _⟩ =>
    have h2 : (y 2 : ℕ) < 2048 := (y 2).isLt
    exact ⟨Nat.zero_le _, by show (y 2 : ℕ) < 0 + 2048; omega⟩

/-- So, whatever the output buffer held before, after the four trips it reads that function. -/
theorem read_out (f4 : arg4.view.ty.Contents (Elt F)) :
    arg4.view.read (Elt F) (arg4.view.writes (Elt F) f4 (pieces c i arg2 harg2 arg3 harg3 x0 w0 xt hchk k0_t1_loop.trips))
      = outBlk c i arg2 harg2 arg3 harg3 x0 w0 xt hchk :=
  funext fun y => View.read_writes_apply_of_pieces arg4.view f4 (outBlk c i arg2 harg2 arg3 harg3 x0 w0 xt hchk) _
    (pieces_agree c i arg2 harg2 arg3 harg3 x0 w0 xt hchk _) y (pieces_cover c i arg2 harg2 arg3 harg3 x0 w0 xt hchk y)

set_option maxHeartbeats 1000000 in
/-- The body, stated over what the memrefs READ: from the table, the inputs' memrefs at their blocks and
    the output's at anything, to the same with the output's memref reading `outBlk`. -/
theorem kernelRun_owns (E : Set ℕ) (K : PUnit → sProp 𝕄) :
    iprop(tbPt c xt ∗ owns (c : Thread nD τ) arg2 fullShare x0 ∗ owns (c : Thread nD τ) arg3 fullShare w0
        ∗ (∃ d, owns (c : Thread nD τ) arg4 fullShare d)
        ∗ (iprop(tbPt c xt ∗ owns (c : Thread nD τ) arg2 fullShare x0 ∗ owns (c : Thread nD τ) arg3 fullShare w0
            ∗ owns (c : Thread nD τ) arg4 fullShare (outBlk c i arg2 harg2 arg3 harg3 x0 w0 xt hchk)) -∗ K ⟨⟩))
      ⊢ wp frame (wpE (defs₀ (F := F)) Variants.none c none) E
          (cc0__gather_matmul_kernel i tbM htbM arg2 harg2 arg3 harg3 arg4 harg4) K := by
  unfold owns
  iintro ⟨HT, ⟨%f2, %hf2, H2⟩, ⟨%f3, %hf3, H3⟩, ⟨%d, %f4, -, H4⟩, HK⟩
  obtain rfl := harg2.eq_unread hf2
  obtain rfl := harg3.eq_unread hf3
  iapply (kernelRun c i arg2 harg2 arg3 harg3 arg4 harg4 x0 w0 xt hchk f4 E K)
  isplitl [HT H2 H3 H4]
  · unfold inv
    isplitl [HT]; · iexact HT
    isplitl [H2]; · iexact H2
    isplitl [H3]; · iexact H3
    iexact H4
  · unfold inv
    iintro ⟨HT, H2, H3, H4⟩
    iapply HK
    isplitl [HT]; · iexact HT
    isplitl [H2]
    · iexists _; isplitr; · ipureintro; exact harg2.read_unread _
      iexact H2
    isplitl [H3]
    · iexists _; isplitr; · ipureintro; exact harg3.read_unread _
      iexact H3
    iexists _; isplitr
    · ipureintro; exact read_out c i arg2 harg2 arg3 harg3 arg4 x0 w0 xt hchk f4
    iexact H4

end Body

end Cert.KernelIdeal.Hand

end
-- ==== Proof.KI.Table.lean ====
/-
  What the host operations leave for the region, and why every id the body reads is in range.

  The nine host operations write the clip of the subject ids — min(7, max(0, s)) word by word — into
  the table, the weights rounded to bf16 into window 1's array, and touch none of the three
  arguments. A clipped word lies in 0 … 7 whatever s is, so the weight slab it names is one of the
  eight: the side condition the body assumes of each word it reads holds at every point, for every
  input. For ids already in 0 … 7 the clip changes nothing.
-/
import proofs.«419144_j22454089023726_3_alg».proof.Proof.KI.Body
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-! ## The buffers at the region's entry -/

/-- The table holds the clip of the subject ids. -/
theorem V_tbl (c : Dev nD) : (V m c main_v0 : S128.Idx → Elt F .i32)
    = minsi (broadcastInDim S128 ![] bcast_S_S128 (constantI S_ 32 7#32))
        (maxsi (broadcastInDim S128 ![] bcast_S_S128 (constantI S_ 32 0#32)) (m ((c : Thread nD τ).loc main_arg1))) := by
  dsimp only [V]
  simp only [hostOps0, hostOps0_1, hostOps0_2, List.flatten_cons, List.flatten_nil, List.append_nil, List.cons_append, List.nil_append]
  after_results
  rfl

/-- Window 1's array holds the weights rounded to bf16. -/
theorem V_w (c : Dev nD) : (V m c main_v1 : S8x256x256.Idx → Elt F .bf16)
    = truncf .bf16 (m ((c : Thread nD τ).loc main_arg2)) bitsLt_bf16_f32 := by
  dsimp only [V]
  simp only [hostOps0, hostOps0_1, hostOps0_2, List.flatten_cons, List.flatten_nil, List.append_nil, List.cons_append, List.nil_append]
  after_results

/-- No host operation writes an argument. -/
theorem V_arg0 (c : Dev nD) : V m c main_arg0 = m ((c : Thread nD τ).loc main_arg0) := by
  dsimp only [V]
  simp only [hostOps0, hostOps0_1, hostOps0_2, List.flatten_cons, List.flatten_nil, List.append_nil, List.cons_append, List.nil_append]
  after_results
theorem V_arg1 (c : Dev nD) : V m c main_arg1 = m ((c : Thread nD τ).loc main_arg1) := by
  dsimp only [V]
  simp only [hostOps0, hostOps0_1, hostOps0_2, List.flatten_cons, List.flatten_nil, List.append_nil, List.cons_append, List.nil_append]
  after_results
theorem V_arg2 (c : Dev nD) : V m c main_arg2 = m ((c : Thread nD τ).loc main_arg2) := by
  dsimp only [V]
  simp only [hostOps0, hostOps0_1, hostOps0_2, List.flatten_cons, List.flatten_nil, List.append_nil, List.cons_append, List.nil_append]
  after_results

/-! ## A clipped word is in range -/

/-- The clip of any word into [0, 7], as an unsigned number, is at most 7. -/
theorem clip_toNat_le (s : BitVec 32) : (IntOp.minsi 7#32 (IntOp.maxsi 0#32 s)).toNat ≤ 7 := by
  unfold IntOp.minsi IntOp.maxsi
  by_cases h1 : s.slt 0#32 = true
  · rw [if_pos h1]
    have h2 : (7#32 : BitVec 32).slt 0#32 = false := by decide
    rw [h2]
    decide
  · rw [if_neg h1]
    by_cases h3 : (7#32 : BitVec 32).slt s = true
    · rw [if_pos h3]; decide
    · rw [if_neg h3]
      simp only [BitVec.slt, decide_eq_true_eq, not_lt] at h1 h3
      have e7 : (7#32 : BitVec 32).toInt = 7 := by decide
      have e0 : (0#32 : BitVec 32).toInt = 0 := by decide
      rw [e7] at h3
      rw [e0] at h1
      have := BitVec.toInt_eq_toNat_cond s
      have hlt := s.isLt
      split at this <;> omega

/-- The clip of a word already in 0 … 7 is the word. -/
theorem clip_of_lt {s : BitVec 32} (h : s.toNat < 8) : IntOp.minsi 7#32 (IntOp.maxsi 0#32 s) = s := by
  unfold IntOp.minsi IntOp.maxsi
  have hi : s.toInt = s.toNat := by
    have := BitVec.toInt_eq_toNat_cond s
    split at this <;> omega
  have e7 : (7#32 : BitVec 32).toInt = 7 := by decide
  have e0 : (0#32 : BitVec 32).toInt = 0 := by decide
  have h1 : ¬ (s.slt 0#32 = true) := by
    simp only [BitVec.slt, decide_eq_true_eq, not_lt, e0]; omega
  rw [if_neg h1]
  have h3 : ¬ ((7#32 : BitVec 32).slt s = true) := by
    simp only [BitVec.slt, decide_eq_true_eq, not_lt, e7]; omega
  rw [if_neg h3]

/-- The side condition the body assumes of a word holds of every word at most 7. -/
theorem chk_of_le {v : BitVec 32} (h : v.toNat ≤ 7) : k0_chk1 v := by
  intro a
  match a with
  | ⟨0, _⟩ => show (Scalar.indexCast v).toNat + 1 ≤ 8; unfold Scalar.indexCast; omega
  | ⟨1, _⟩ => show 0 + 256 ≤ 256; omega
  | ⟨2, _⟩ => show 0 + 256 ≤ 256; omega

/-! ## The table's words -/

/-- Each word of the table is the clip of the id in that place. -/
theorem tbl_apply (y : S128.Idx) :
    (tbl m 0 : S128.Idx → Elt F .i32) y = IntOp.minsi 7#32 (IntOp.maxsi 0#32 (m (((0 : Dev nD) : Thread nD τ).loc main_arg1) y)) := by
  show (V m 0 main_v0 : S128.Idx → Elt F .i32) y = _
  rw [V_tbl]
  show IntOp.minsi _ (IntOp.maxsi _ _) = _
  rw [broadcastInDim_apply _ bcast_S_S128 (constantI S_ 32 7#32) y (fun a => a.elim0) (fun a => a.elim0),
    broadcastInDim_apply _ bcast_S_S128 (constantI S_ 32 0#32) y (fun a => a.elim0) (fun a => a.elim0)]
  rfl

/-- At every point every id the body reads names a slab inside the weight table. -/
theorem tbl_chk (c : Dev nD) (i : grid0.Coords) : Chk c i (tbl m 0) := fun k => by
  show k0_chk1 ((tbl m 0 : S128.Idx → Elt F .i32) _)
  rw [tbl_apply]
  exact chk_of_le (clip_toNat_le _)

/-- With every id in 0 … 7 the table is the ids themselves. -/
theorem tbl_of_lt (hs : ∀ y : S128.Idx, (m (((0 : Dev nD) : Thread nD τ).loc main_arg1) y).toNat < 8) :
    (tbl m 0 : S128.Idx → Elt F .i32) = m (((0 : Dev nD) : Thread nD τ).loc main_arg1) :=
  funext fun (y : S128.Idx) => (tbl_apply m y).trans (clip_of_lt (hs y))

end Cert.KernelIdeal.Hand

end
-- ==== Proof.KI.Run.lean ====
/-
  The kernel's proof data, the body's obligation at every point, and the run of @main.

  At point t the two input windows' staging buffers hold rows 4t … 4t+3 of x and the whole rounded
  weight table; the body leaves them in place and leaves the output window's buffer at the four
  products (`outBlk` of those blocks and the table). With that as the data of the one pipeline, the
  library's launch theorem gives the run of @main: every weakly fair execution ends, nothing faults,
  the result array holds what the pipeline writes back point by point, and every other unscoped
  buffer holds what it held at the region's entry — in particular the three arguments are unchanged.
-/
import proofs.«419144_j22454089023726_3_alg».proof.Proof.KI.Table

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output window's buffer holds after each point -/

/-- After the body at point `t`: the four products of the point's x block and the weight slabs the
    table's words 4t … 4t+3 name. -/
def outAt (c : Dev nD) (t : Fin (cfgM m).N) : Vec F S4x256x2048 .f32 :=
  outBlk c (grid0.coords t) (ms0 m t) (hs0 m t) (ms1 m t) (hs1 m t) (iblk m c 0 t) (iblk m c 1 t) (tbl m 0)
    (tbl_chk m c (grid0.coords t))

/-! ## The proof data -/

/-- The one pipeline's data on core `c`: the arrays as the region finds them; after the body each input's
    buffer at its block and the output's at `outAt`; the invariant the scoped rest, the generator register
    and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outAt m c t := by dsimp only [dats]; try rfl

/-- Each input's current staging buffer holds its block at every point, fetched there or not: unfetched,
    the block index has not moved and the body left the block in place. -/
theorem before0 (c : Dev nD) (t : Fin (cfgM m).N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the body's run applies; the
    invariant passes through, the table's half lent to the run and taken back; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  unfold outAt
  iintro ⟨⟨HΦ, HT⟩, Ho, ⟨%d0, H0⟩, ⟨%d1, H1⟩, ⟨%d2, H2⟩⟩
  iapply (kernelRun_owns c (grid0.coords t) (ms0 m t) (hs0 m t) (ms1 m t) (hs1 m t) (ms2 m t) (hs2 m t)
    (iblk m c 0 t) (iblk m c 1 t) (tbl m 0) (tbl_chk m c (grid0.coords t)) Set.univ _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, nothing faulting;
    in the final state every array of the pipeline holds what the proof data compute and every other
    unscoped buffer what the region found in it. -/
theorem run_main : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The three argument arrays end as they were launched: x is an input window's array, which the pipeline
    never writes; the ids and the weights bypass the region; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_arg0 m c))),
      ((h c).2 main_arg1 (by decide : main_arg1 ∈ Pipeline.restRefs sig spec0)).trans (V_arg1 m c),
      ((h c).2 main_arg2 (by decide : main_arg2 ∈ Pipeline.restRefs sig spec0)).trans (V_arg2 m c)⟩) (run_main m ρ)

end Cert.KernelIdeal.Hand

end
-- ==== Proof.KI.PayValue.lean ====
/-
  The region's payload at an element: one entry of the product of a weight slab and an x slab.

  The payload takes the weight slab w : [1, 256, 256] (channel c, output channel d) and the x slab
  x : [1, 256, 2048] (channel c, time t), drops the unit leading axis of each, rounds x to bf16 (the
  identity over the extended reals), contracts axis 0 of both on the matrix unit into a zero
  accumulator, and puts the unit axis back. So its element (0, d, t) is Σ_c w[0, c, d] · x[0, c, t].
-/
import proofs.«419144_j22454089023726_3_alg».proof.Proof.KI.Setup
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The product's operand indices, axis by axis

At result index i = (d, t) and contraction index q = (c): the left operand is read at (c, d), the right at (c, t). -/

/-- The left operand's axis 0 is the contracted one: it reads the contraction index. -/
theorem lhs_pay1_0 (i : S256x2048.Idx) (q : dot_S256x256_S256x2048_S256x2048_0_0_1_1_n_n.contr.Idx) :
    (dot_S256x256_S256x2048_S256x2048_0_0_1_1_n_n.lhsIdx i q 0).val = (q ⟨0, by decide⟩).val :=
  dot_S256x256_S256x2048_S256x2048_0_0_1_1_n_n.lhsIdx_val_of_single rfl i q
/-- The left operand's axis 1 is its free one, the result's axis 0. -/
theorem lhs_pay1_1 (i : S256x2048.Idx) (q : dot_S256x256_S256x2048_S256x2048_0_0_1_1_n_n.contr.Idx) :
    (dot_S256x256_S256x2048_S256x2048_0_0_1_1_n_n.lhsIdx i q 1).val = (i 0).val := by
  unfold DotDims.lhsIdx
  rw [dif_neg (show ¬(1 : Fin S256x256.rank) ∈ dot_S256x256_S256x2048_S256x2048_0_0_1_1_n_n.lhsBatch by decide), dif_pos (show (1 : Fin S256x256.rank) ∈ dot_S256x256_S256x2048_S256x2048_0_0_1_1_n_n.lhsNonContracting by decide)]
  rfl
/-- The right operand's axis 0 is the contracted one: it reads the contraction index. -/
theorem rhs_pay1_0 (i : S256x2048.Idx) (q : dot_S256x256_S256x2048_S256x2048_0_0_1_1_n_n.contr.Idx) :
    (dot_S256x256_S256x2048_S256x2048_0_0_1_1_n_n.rhsIdx i q 0).val = (q ⟨0, by decide⟩).val :=
  dot_S256x256_S256x2048_S256x2048_0_0_1_1_n_n.rhsIdx_val_of_single rfl i q
/-- The right operand's axis 1 is its free one, the result's axis 1. -/
theorem rhs_pay1_1 (i : S256x2048.Idx) (q : dot_S256x256_S256x2048_S256x2048_0_0_1_1_n_n.contr.Idx) :
    (dot_S256x256_S256x2048_S256x2048_0_0_1_1_n_n.rhsIdx i q 1).val = (i 1).val := by
  unfold DotDims.rhsIdx
  rw [dif_neg (show ¬(1 : Fin S256x2048.rank) ∈ dot_S256x256_S256x2048_S256x2048_0_0_1_1_n_n.rhsBatch by decide), dif_pos (show (1 : Fin S256x2048.rank) ∈ dot_S256x256_S256x2048_S256x2048_0_0_1_1_n_n.rhsNonContracting by decide)]
  rfl

/-- The product into a zero accumulator at (d, t): the sum over the channel c of A[c, d] · B[c, t]. -/
theorem matmul_pay1_apply (A : FVec Ideal S256x256 .bf16) (B : FVec Ideal S256x2048 .bf16) (d : Fin 256) (t : Fin 2048) :
    matmul (F := Ideal) dot_S256x256_S256x2048_S256x2048_0_0_1_1_n_n none A B (constant (F := Ideal) S256x2048 .f32 0x00000000#32) (ix2 d t)
      = ∑ c : Fin 256, A (ix2 c d) * B (ix2 c t) := by
  simp only [matmul]
  rw [Ideal.matmul_constant_zero_apply, ← Equiv.sum_comp (contrEquiv1 dot_S256x256_S256x2048_S256x2048_0_0_1_1_n_n 256 rfl rfl).symm]
  refine Finset.sum_congr rfl fun k _ => ?_
  have hk := contrEquiv1_symm_val dot_S256x256_S256x2048_S256x2048_0_0_1_1_n_n 256 rfl rfl k
  have el : dot_S256x256_S256x2048_S256x2048_0_0_1_1_n_n.lhsIdx (ix2 d t) ((contrEquiv1 dot_S256x256_S256x2048_S256x2048_0_0_1_1_n_n 256 rfl rfl).symm k) = ix2 k d := funext fun a => Fin.ext (by
    match a with
    | ⟨0, _⟩ => exact (lhs_pay1_0 _ _).trans hk
    | ⟨1, _⟩ => exact lhs_pay1_1 _ _)
  have er : dot_S256x256_S256x2048_S256x2048_0_0_1_1_n_n.rhsIdx (ix2 d t) ((contrEquiv1 dot_S256x256_S256x2048_S256x2048_0_0_1_1_n_n 256 rfl rfl).symm k) = ix2 k t := funext fun a => Fin.ext (by
    match a with
    | ⟨0, _⟩ => exact (rhs_pay1_0 _ _).trans hk
    | ⟨1, _⟩ => exact rhs_pay1_1 _ _)
  rw [el, er]

/-- Element (0, d, t) of the payload is Σ_c w[0, c, d] · x[0, c, t]. -/
theorem pay1_apply (v6 : Vec Ideal S1x256x256 .bf16) (v9 : Vec Ideal S1x256x2048 .f32) (d : Fin 256) (t : Fin 2048) :
    k0_pay1 (F := Ideal) v6 v9 (ix3 (0 : Fin 1) d t)
      = ∑ c : Fin 256, v6 (ix3 (0 : Fin 1) c d) * v9 (ix3 (0 : Fin 1) c t) := by
  unfold k0_pay1
  -- the unit axis put back reads the product at (d, t)
  rw [shapeCast_ab_1ab_apply, matmul_pay1_apply]
  refine Finset.sum_congr rfl fun c _ => ?_
  -- each operand with its unit axis dropped reads the slab at (0, c, ·); the rounding is the identity
  rw [shapeCast_1ab_ab_apply, truncf_apply, shapeCast_1ab_ab_apply]

end Cert.KernelIdeal.Hand

end
-- ==== Proof.Spec.lean ====
/-
  What both programs compute, as one function of the three argument arrays, over the extended reals.

  x : [128, 256, 2048] (batch b, channel c, time t), subjects : [128] (one id per batch element),
  weights : [8, 256, 256] (subject, channel c, output channel d). Each batch element picks the
  weight matrix its subject id names and contracts the channel axis:

      out[b, d, t] = Σ_c weights[row(subjects[b]), c, d] · x[b, c, t].

  `row` is the id's value taken modulo 8, so that the function is total; for an id in 0 … 7 it is
  the id itself, which is the only case either program is compared on.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![128, 256, 2048]⟩
abbrev SS : Shape := ⟨1, ![128]⟩
abbrev SW : Shape := ⟨3, ![8, 256, 256]⟩

/-- The row of the weight table a subject id names. -/
def row (s : BitVec 32) : Fin 8 := ⟨s.toNat % 8, Nat.mod_lt _ (by decide)⟩

/-- An id whose value is below 8 names the row of that value. -/
theorem row_val_of_lt {s : BitVec 32} (h : s.toNat < 8) : (row s).val = s.toNat := Nat.mod_eq_of_lt h

/-- The gathered, batched product: the result of both programs. -/
def gatherMatmul (x : FVec Ideal SX .f32) (s : IVec SS 32) (w : FVec Ideal SW .f32) : FVec Ideal SX .f32 :=
  fun j => ∑ c : Fin 256, w (ix3 (row (s (ix1 (j 0 : Fin 128)))) c (j 1 : Fin 256)) * x (ix3 (j 0 : Fin 128) c (j 2 : Fin 2048))

theorem gatherMatmul_apply (x : FVec Ideal SX .f32) (s : IVec SS 32) (w : FVec Ideal SW .f32)
    (b : Fin 128) (d : Fin 256) (t : Fin 2048) :
    gatherMatmul x s w (ix3 b d t) = ∑ c : Fin 256, w (ix3 (row (s (ix1 b))) c d) * x (ix3 b c t) := rfl

end Cert.Spec

end
-- ==== Proof.KI.Value.lean ====
/-
  The idealized kernel's result array is the gathered, batched product of the arguments.

  Over the extended reals trip k of the body at point t stores, at (k, d, u) of the output block,
  Σ_c W[id, c, d] · X[4t + k, c, u], where W is the weight table (its rounding to bf16 is the identity
  here), X is x, and id is the table's word for batch row 4t + k, which for ids in 0 … 7 is the id
  itself. Point t writes its block back as rows 4t … 4t+3 of the result, and the 32 blocks tile it:
  the result array is `Cert.Spec.gatherMatmul` of the three arguments.
-/
import proofs.«419144_j22454089023726_3_alg».proof.Proof.KI.Run
import proofs.«419144_j22454089023726_3_alg».proof.Proof.KI.PayValue
import proofs.«419144_j22454089023726_3_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One trip's product, index by index -/

section Trip

variable (c : Dev nD) (i : grid0.Coords)
  (arg2 : Memref sig .tc .vmem S4x256x2048 .f32) (harg2 : arg2.IsWhole)
  (arg3 : Memref sig .tc .vmem S8x256x256 .bf16) (harg3 : arg3.IsWhole)
  (x0 : Vec Ideal S4x256x2048 .f32) (w0 : Vec Ideal S8x256x256 .bf16) (xt : TbBuf (F := Ideal) c)
  (hchk : Chk c i xt)

/-- A word that passes the body's side condition names one of the eight slabs. -/
theorem lt_of_chk {v : BitVec 32} (h : k0_chk1 v) : v.toNat < 8 := by
  have := h 0
  have e : (k0_off2 v) 0 + S1x256x256.size 0 ≤ S8x256x256.size 0 := this
  have : (Scalar.indexCast v).toNat + 1 ≤ 8 := e
  unfold Scalar.indexCast at this
  omega

/-- The slab trip `k` reads. -/
def slab (k : Fin k0_t1_loop.trips) : Fin 8 := ⟨(word c i xt k).toNat, lt_of_chk (hchk k)⟩

/-- The row of the x block trip `k` reads. -/
def tripRow (k : Fin k0_t1_loop.trips) : Fin 4 := ⟨k.val, by have h := k.isLt; have e := trips_eq; omega⟩

/-- Trip `k`'s product at (0, d, u): the channel sum of the slab's column d against row block k of x. -/
theorem pay_apply (k : Fin k0_t1_loop.trips) (d : Fin 256) (u : Fin 2048) :
    pay c i arg2 harg2 arg3 harg3 x0 w0 xt hchk k (ix3 (0 : Fin 1) d u)
      = ∑ c' : Fin 256, w0 (ix3 (slab c i xt hchk k) c' d) * x0 (ix3 (tripRow k) c' u) := by
  unfold pay
  rw [pay1_apply]
  refine Finset.sum_congr rfl fun c' _ => ?_
  rw [View.readAt_apply, View.readAt_apply, harg3.read_unread, harg2.read_unread]
  congr 1
  · congr 1
    funext a
    apply Fin.ext
    match a with
    | ⟨0, _⟩ => show (k0_off2 (word c i xt k)) 0 + 1 * 0 = (word c i xt k).toNat; show (Scalar.indexCast (word c i xt k)).toNat + 1 * 0 = _; unfold Scalar.indexCast; omega
    | ⟨1, _⟩ => show 0 + 1 * c'.val = c'.val; omega
    | ⟨2, _⟩ => show 0 + 1 * d.val = d.val; omega
  · congr 1
    funext a
    apply Fin.ext
    match a with
    | ⟨0, _⟩ => show (k0_off3 k) 0 + 1 * 0 = k.val; rw [k0_off3_eq]; show k.val + 1 * 0 = k.val; omega
    | ⟨1, _⟩ => show (k0_off3 k) 1 + 1 * c'.val = c'.val; rw [k0_off3_eq]; show 0 + 1 * c'.val = c'.val; omega
    | ⟨2, _⟩ => show (k0_off3 k) 2 + 1 * u.val = u.val; rw [k0_off3_eq]; show 0 + 1 * u.val = u.val; omega

/-- The output block after the body, index by index. -/
theorem outBlk_apply (y : S4x256x2048.Idx) :
    outBlk c i arg2 harg2 arg3 harg3 x0 w0 xt hchk y
      = ∑ c' : Fin 256, w0 (ix3 (slab c i xt hchk (slabOf y)) c' (⟨(y 1).val, (y 1).isLt⟩ : Fin 256))
          * x0 (ix3 (tripRow (slabOf y)) c' (⟨(y 2).val, (y 2).isLt⟩ : Fin 2048)) := by
  unfold outBlk inSlab
  exact pay_apply c i arg2 harg2 arg3 harg3 x0 w0 xt hchk (slabOf y) _ _

end Trip

/-! ## The schedule: which block each window holds at point t (the table's contents play no part) -/

section Schedule

variable (a : (pcfg0 (F := Ideal)).Adm)

theorem N_eq : (cfg0 a).N = 32 := N_0
theorem lt32 (t : Fin (cfg0 a).N) : t.val < 32 := by have h := t.isLt; have e := N_eq a; omega

/-- The grid is one axis: the point is its coordinate. -/
theorem coord_eq (t : Fin (cfg0 a).N) : ((grid0.coords t) 0).val = t.val :=
  (by decide +kernel : ∀ t : Fin grid0.N, ((grid0.coords t) 0).val = t.val) t

/-- x's window is at block (t, 0, 0); the weights' always at (0, 0, 0); the result's at (t, 0, 0). -/
theorem index0 (t : Fin (cfg0 a).N) : ((cfg0 a).win 0).index t = ![t.val, 0, 0] :=
  (by decide +kernel : ∀ t : Fin grid0.N, cc0_transform_0 (grid0.coords t) = ![t.val, 0, 0]) t
theorem index1 (t : Fin (cfg0 a).N) : ((cfg0 a).win 1).index t = ![0, 0, 0] :=
  (by decide +kernel : ∀ t : Fin grid0.N, cc0_transform_1 (grid0.coords t) = ![0, 0, 0]) t
theorem index2 (t : Fin (cfg0 a).N) : ((cfg0 a).win 2).index t = ![t.val, 0, 0] :=
  (by decide +kernel : ∀ t : Fin grid0.N, cc0_transform_2 (grid0.coords t) = ![t.val, 0, 0]) t

/-- The result's block index moves at every point: every point writes its block back. -/
theorem flush2 (t : Fin (cfg0 a).N) : ((cfg0 a).win 2).flush t = true := by
  unfold Pipeline.Window.flush
  rw [show ((cfg0 a).win 2).isOut = true from rfl, Bool.true_and, Bool.or_eq_true, decide_eq_true_eq, decide_eq_true_eq]
  have eN : (cfg0 a).N = (cfg0 a).grid.N := rfl
  by_cases h : t.val + 1 = (cfg0 a).grid.N
  · exact .inl h
  · refine .inr ⟨by have := t.isLt; omega, ?_⟩
    rw [index2, index2]
    intro e
    have := congrFun e 0
    simp only [Matrix.cons_val_zero] at this
    omega

/-- Reading x's block at point t at (r, c, u) reads the array at (4t + r, c, u). -/
theorem read_blk0 (f : S128x256x2048.Idx → Elt Ideal .f32) (t : Fin (cfg0 a).N) (r : Fin 4) (c' : Fin 256) (u : Fin 2048) :
    (((cfg0 a).win 0).blk t).view.read (Elt Ideal) f (ix3 r c' u)
      = f (ix3 (⟨4 * t.val + r.val, by have := lt32 a t; have := r.isLt; omega⟩ : Fin 128) c' u) := by
  have hi := index0 a t
  show f ((((cfg0 a).win 0).blk t).view.emb (ix3 r c' u)) = _
  congr 1
  funext ax
  apply Fin.ext
  match ax with
  | ⟨0, _⟩ => show ((cfg0 a).win 0).index t (0 : Fin 3) * 4 + 1 * r.val = 4 * t.val + r.val; rw [hi]; show t.val * 4 + 1 * r.val = _; omega
  | ⟨1, _⟩ => show ((cfg0 a).win 0).index t (1 : Fin 3) * 256 + 1 * c'.val = c'.val; rw [hi]; show 0 * 256 + 1 * c'.val = _; omega
  | ⟨2, _⟩ => show ((cfg0 a).win 0).index t (2 : Fin 3) * 2048 + 1 * u.val = u.val; rw [hi]; show 0 * 2048 + 1 * u.val = _; omega

/-- Reading the weights' block at any point reads the array at the same index. -/
theorem read_blk1 (f : S8x256x256.Idx → Elt Ideal .bf16) (t : Fin (cfg0 a).N) (r : Fin 8) (c' : Fin 256) (d : Fin 256) :
    (((cfg0 a).win 1).blk t).view.read (Elt Ideal) f (ix3 r c' d) = f (ix3 r c' d) := by
  have hi := index1 a t
  show f ((((cfg0 a).win 1).blk t).view.emb (ix3 r c' d)) = _
  congr 1
  funext ax
  apply Fin.ext
  match ax with
  | ⟨0, _⟩ => show ((cfg0 a).win 1).index t (0 : Fin 3) * 8 + 1 * r.val = r.val; rw [hi]; show 0 * 8 + 1 * r.val = _; omega
  | ⟨1, _⟩ => show ((cfg0 a).win 1).index t (1 : Fin 3) * 256 + 1 * c'.val = c'.val; rw [hi]; show 0 * 256 + 1 * c'.val = _; omega
  | ⟨2, _⟩ => show ((cfg0 a).win 1).index t (2 : Fin 3) * 256 + 1 * d.val = d.val; rw [hi]; show 0 * 256 + 1 * d.val = _; omega

/-- Reading the result's block at point t at y reads the array at (4t + y₀, y₁, y₂). -/
theorem read_blk2 (f : S128x256x2048.Idx → Elt Ideal .f32) (t : Fin (cfg0 a).N) (y : S4x256x2048.Idx) :
    (((cfg0 a).win 2).blk t).view.read (Elt Ideal) f y
      = f (ix3 (⟨4 * t.val + (y 0).val, by have := lt32 a t; have h0 : (y 0).val < 4 := (y 0).isLt; omega⟩ : Fin 128)
          (⟨(y 1).val, (y 1).isLt⟩ : Fin 256) (⟨(y 2).val, (y 2).isLt⟩ : Fin 2048)) := by
  have hi := index2 a t
  show f ((((cfg0 a).win 2).blk t).view.emb y) = _
  congr 1
  funext ax
  apply Fin.ext
  match ax with
  | ⟨0, _⟩ => show ((cfg0 a).win 2).index t (0 : Fin 3) * 4 + 1 * (y 0).val = 4 * t.val + (y 0).val; rw [hi]; show t.val * 4 + 1 * (y 0).val = _; omega
  | ⟨1, _⟩ => show ((cfg0 a).win 2).index t (1 : Fin 3) * 256 + 1 * (y 1).val = (y 1).val; rw [hi]; show 0 * 256 + 1 * (y 1).val = _; omega
  | ⟨2, _⟩ => show ((cfg0 a).win 2).index t (2 : Fin 3) * 2048 + 1 * (y 2).val = (y 2).val; rw [hi]; show 0 * 2048 + 1 * (y 2).val = _; omega

/-- The point whose block holds batch row b of the result: b / 4. -/
def pointOf (i : S128x256x2048.Idx) : Fin (cfg0 a).N :=
  ⟨(i 0).val / 4, by have h0 : (i 0).val < 128 := (i 0).isLt; have := N_eq a; omega⟩

/-- Every index of the result lies in the block of its point. -/
theorem mem_blk2 (i : S128x256x2048.Idx) : i ∈ (((cfg0 a).win 2).blk (pointOf a i)).view.set := by
  have hidx := index2 a (pointOf a i)
  have h0 : (i 0).val < 128 := (i 0).isLt
  have h1 : (i 1).val < 256 := (i 1).isLt
  have h2 : (i 2).val < 2048 := (i 2).isLt
  refine Eq.mpr (congrArg (fun S => i ∈ S) (View.set_slice_whole main_v2 (((cfg0 a).win 2).rect (pointOf a i)))) ?_
  refine Rect.mem_set_unit.mpr ?_
  intro ax
  match ax with
  | ⟨0, _⟩ =>
    show ((cfg0 a).win 2).index (pointOf a i) (0 : Fin 3) * 4 ≤ (i 0).val ∧ (i 0).val < ((cfg0 a).win 2).index (pointOf a i) (0 : Fin 3) * 4 + 4
    rw [hidx]; show (i 0).val / 4 * 4 ≤ (i 0).val ∧ (i 0).val < (i 0).val / 4 * 4 + 4; omega
  | ⟨1, _⟩ =>
    show ((cfg0 a).win 2).index (pointOf a i) (1 : Fin 3) * 256 ≤ (i 1).val ∧ (i 1).val < ((cfg0 a).win 2).index (pointOf a i) (1 : Fin 3) * 256 + 256
    rw [hidx]; show 0 * 256 ≤ (i 1).val ∧ (i 1).val < 0 * 256 + 256; omega
  | ⟨2, _⟩ =>
    show ((cfg0 a).win 2).index (pointOf a i) (2 : Fin 3) * 2048 ≤ (i 2).val ∧ (i 2).val < ((cfg0 a).win 2).index (pointOf a i) (2 : Fin 3) * 2048 + 2048
    rw [hidx]; show 0 * 2048 ≤ (i 2).val ∧ (i 2).val < 0 * 2048 + 2048; omega

end Schedule

/-! ## The blocks and the table's words, read off the arguments -/

section Blocks

variable (m : (ℓ : Loc nD τ sig) → Buf (Elt Ideal) ℓ)

/-- Row r of the x block at point t is batch row 4t + r of x. -/
theorem xblk_apply (c : Dev nD) (t : Fin (cfgM m).N) (r : Fin 4) (c' : Fin 256) (u : Fin 2048) :
    (iblk m c 0 t : Vec Ideal S4x256x2048 .f32) (ix3 r c' u)
      = (m ((c : Thread nD τ).loc main_arg0) : S128x256x2048.Idx → Elt Ideal .f32)
          (ix3 (⟨4 * t.val + r.val, by have := lt32 (adm m) t; have := r.isLt; omega⟩ : Fin 128) c' u) := by
  exact (read_blk0 (adm m) (V m c main_arg0) t r c' u).trans (congrFun (V_arg0 m c) _)

/-- The weights' block is the whole weight table (rounding to bf16 is the identity over the extended reals). -/
theorem wblk_apply (c : Dev nD) (t : Fin (cfgM m).N) (r : Fin 8) (c' : Fin 256) (d : Fin 256) :
    (iblk m c 1 t : Vec Ideal S8x256x256 .bf16) (ix3 r c' d)
      = (m ((c : Thread nD τ).loc main_arg2) : S8x256x256.Idx → Elt Ideal .f32) (ix3 r c' d) := by
  exact (read_blk1 (adm m) (V m c main_v1) t r c' d).trans (congrFun (V_w m c) _)

/-- The id trip k reads at point t is the table's word for batch row 4t + k. -/
theorem word_apply (c : Dev nD) (t : Fin (cfgM m).N) (k : Fin k0_t1_loop.trips) :
    word c (grid0.coords t) (tbl m 0) k
      = (tbl m 0 : S128.Idx → Elt Ideal .i32) (ix1 (⟨4 * t.val + k.val, by have := lt32 (adm m) t; have := (tripRow k).isLt; show 4 * t.val + (tripRow k).val < 128; omega⟩ : Fin 128)) := by
  unfold word
  show (tbl m 0 : S128.Idx → Elt Ideal .i32) _ = _
  congr 1
  funext ax
  apply Fin.ext
  match ax with
  | ⟨0, _⟩ =>
    show (k0_off1 (grid0.coords t) k) 0 + 1 * 0 = 4 * t.val + k.val
    rw [k0_off1_eq]
    show 4 * ((grid0.coords t) 0).val + k.val + 1 * 0 = _
    rw [coord_eq (adm m) t]
    omega

end Blocks

/-! ## The result array -/

section Final

variable (m : (ℓ : Loc nD τ sig) → Buf (Elt Ideal) ℓ) (ρ : Dev nD → PrngReg)
variable (hs : ∀ b : Fin 128, ((m (((0 : Dev nD) : Thread nD τ).loc main_arg1) : S128.Idx → Elt Ideal .i32) (ix1 b)).toNat < 8)

/-- The specification at core `c`'s arguments. -/
abbrev G (c : Dev nD) : S128x256x2048.Idx → Elt Ideal .f32 :=
  Cert.Spec.gatherMatmul (m ((c : Thread nD τ).loc main_arg0)) (m ((c : Thread nD τ).loc main_arg1)) (m ((c : Thread nD τ).loc main_arg2))

include hs in
theorem ids_lt (y : S128.Idx) : ((m (((0 : Dev nD) : Thread nD τ).loc main_arg1) : S128.Idx → Elt Ideal .i32) y).toNat < 8 := by
  rw [eq_ix1 y]; exact hs _

include hs in
/-- What point t leaves at (k, d, u) of the output block is the specification at (4t + k, d, u). -/
theorem outAt_apply (c : Dev nD) (t : Fin (cfgM m).N) (y : S4x256x2048.Idx) :
    outAt m c t y = G m c (ix3 (⟨4 * t.val + (y 0).val, by have := lt32 (adm m) t; have h0 : (y 0).val < 4 := (y 0).isLt; omega⟩ : Fin 128)
      (⟨(y 1).val, (y 1).isLt⟩ : Fin 256) (⟨(y 2).val, (y 2).isLt⟩ : Fin 2048)) := by
  obtain rfl : c = 0 := Subsingleton.elim _ _
  unfold outAt
  refine (outBlk_apply 0 (grid0.coords t) (ms0 m t) (hs0 m t) (ms1 m t) (hs1 m t) (iblk m 0 0 t) (iblk m 0 1 t) (tbl m 0)
    (tbl_chk m 0 (grid0.coords t)) y).trans ?_
  refine Eq.trans ?_ (Cert.Spec.gatherMatmul_apply _ _ _ _ _ _).symm
  refine Finset.sum_congr rfl fun c' _ => ?_
  have hrow : slab 0 (grid0.coords t) (tbl m 0) (tbl_chk m 0 (grid0.coords t)) (slabOf y)
      = Cert.Spec.row ((m (((0 : Dev nD) : Thread nD τ).loc main_arg1) : S128.Idx → Elt Ideal .i32)
          (ix1 (⟨4 * t.val + (y 0).val, by have := lt32 (adm m) t; have h0 : (y 0).val < 4 := (y 0).isLt; omega⟩ : Fin 128))) := by
    apply Fin.ext
    show (word 0 (grid0.coords t) (tbl m 0) (slabOf y)).toNat = _
    rw [word_apply, tbl_of_lt m (ids_lt m hs), Cert.Spec.row_val_of_lt (hs _)]
    rfl
  exact congrArg₂ (· * ·) ((wblk_apply m 0 t _ c' _).trans (by rw [hrow])) (xblk_apply m 0 t _ c' _)

include hs in
/-- What point t writes back is block t of the specification. -/
theorem flushed_eq (c : Dev nD) (t : Fin (cfgM m).N) :
    (dats m 0 c).flushed 2 t = (((cfgM m).win 2).blk t).view.read (Elt Ideal) (G m c) := by
  show ((cfgM m).win 2).cut ((cfgM m).grid.coords t) ((dats m 0 c).after 2 t) = _
  rw [after2]
  funext y
  exact (outAt_apply m hs c t y).trans (read_blk2 (adm m) (G m c) t y).symm

include hs in
/-- The 32 blocks tile the result: row b lies in the block of point b / 4. So the result array ends
    holding the specification. -/
theorem final (c : Dev nD) : (dats m 0 c).arrAt 2 (cfgM m).N = G m c :=
  (dats m 0 c).arrAt_eq_of_cover 2 (G m c) (fun t _ => flushed_eq m hs c t) fun i =>
    ⟨pointOf (adm m) i, flush2 (adm m) _, mem_blk2 (adm m) i⟩

include hs in
/-- The run with the result array named: it ends at the specification of the arguments, which are unchanged. -/
theorem run_value : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (final m hs c),
      ((h c).1 0).trans (((dats m 0 c).arrAt_in 0 rfl _).trans ((A_eq m c 0).trans (V_arg0 m c))),
      ((h c).2 main_arg1 (by decide : main_arg1 ∈ Pipeline.restRefs sig spec0)).trans (V_arg1 m c),
      ((h c).2 main_arg2 (by decide : main_arg2 ∈ Pipeline.restRefs sig spec0)).trans (V_arg2 m c)⟩) (run_main m ρ)

end Final

end Cert.KernelIdeal.Hand

end
-- ==== Proof.RefValue.lean ====
/-
  The reference's result is the gathered, batched product.

  The reference turns each subject id s into an index (s + 8 when s < 0, else s), gathers that row of
  the weight table per batch element, and contracts the channel axis against x. For ids in 0 … 7 the
  index is s itself and lies inside the table, so element (b, d, t) of its result is
  Σ_c weights[s_b, c, d] · x[b, c, t].
-/
import proofs.«419144_j22454089023726_3_alg».proof.Proof.Gen.ReferenceIdeal.Run
import proofs.«419144_j22454089023726_3_alg».proof.Proof.Gen.ReferenceIdeal.Read
import proofs.«419144_j22454089023726_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The gather's dimension numbers: the table's axis 0 is indexed and collapsed, its axes 1 and 2 are kept whole. -/
abbrev tableGather : GatherDims S8x256x256 S128x1 S128x256x256 := gather_S8x256x256_S128x1_S128x256x256_12_0_n_n_0_1_1256256

/-- On the table's axis 0 the gather reads result element (b, c, d) at the start index of b, read signed and clamped
    into 0 … 7 (the slice there has size 1 of 8); that axis takes no batch and no offset coordinate. -/
theorem operand0 {w : Nat} (idx : IVec S128x1 w) (b : Fin 128) (c d : Fin 256) :
    (tableGather.operandIdx (ix3 b c d) idx 0).val = min (idx (ix2 b (0 : Fin 1))).toInt.toNat 7 := by
  show tableGather.start _ idx 0 + tableGather.batchCoord _ 0 + tableGather.offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ tableGather.startIndexMap from List.mem_singleton.mpr rfl)]
  have hsi : tableGather.siIdx (ix3 b c d) ⟨List.idxOf (0 : Fin 3) tableGather.startIndexMap,
        List.idxOf_lt_length_iff.2 (List.mem_singleton.mpr rfl)⟩ = ix2 b (0 : Fin 1) := by
    funext e; refine Fin.ext ?_
    match e with
    | ⟨0, _⟩ => rfl
    | ⟨1, _⟩ => rfl
  rw [hsi]
  rfl

/-- On the table's axis 1 the gather reads at the result's coordinate c: no start index, the first offset axis. -/
theorem operand1 {w : Nat} (idx : IVec S128x1 w) (b : Fin 128) (c d : Fin 256) :
    (tableGather.operandIdx (ix3 b c d) idx 1).val = c.val := by
  show tableGather.start _ idx 1 + tableGather.batchCoord _ 1 + tableGather.offCoord _ 1 = _
  rw [GatherDims.batchCoord_eq_zero _ _ _ List.not_mem_nil]
  unfold GatherDims.start
  rw [dif_neg (show (1 : Fin 3) ∉ tableGather.startIndexMap by decide)]
  unfold GatherDims.offCoord
  rw [dif_pos (show (1 : Fin 3) ∈ tableGather.sKept by decide)]
  simp only [Nat.zero_add]
  rfl

/-- On the table's axis 2 the gather reads at the result's coordinate d: no start index, the second offset axis. -/
theorem operand2 {w : Nat} (idx : IVec S128x1 w) (b : Fin 128) (c d : Fin 256) :
    (tableGather.operandIdx (ix3 b c d) idx 2).val = d.val := by
  show tableGather.start _ idx 2 + tableGather.batchCoord _ 2 + tableGather.offCoord _ 2 = _
  rw [GatherDims.batchCoord_eq_zero _ _ _ List.not_mem_nil]
  unfold GatherDims.start
  rw [dif_neg (show (2 : Fin 3) ∉ tableGather.startIndexMap by decide)]
  unfold GatherDims.offCoord
  rw [dif_pos (show (2 : Fin 3) ∈ tableGather.sKept by decide)]
  simp only [Nat.zero_add]
  rfl

/-- The gather read at (b, c, d): the table at row "start index of b, read signed and clamped into 0 … 7", at (c, d). -/
theorem gather_apply {α : Type} {w : Nat} (x : S8x256x256.Idx → α) (idx : IVec S128x1 w) (b : Fin 128) (c d : Fin 256) :
    Host.gather tableGather x idx (ix3 b c d)
      = x (ix3 (⟨min (idx (ix2 b (0 : Fin 1))).toInt.toNat 7, by omega⟩ : Fin 8) c d) := by
  unfold Host.gather
  congr 1
  funext a
  refine Fin.ext ?_
  match a with
  | ⟨0, _⟩ => exact operand0 idx b c d
  | ⟨1, _⟩ => exact operand1 idx b c d
  | ⟨2, _⟩ => exact operand2 idx b c d

/-- A word whose unsigned value is below 8 has that value as a signed number too (it is below 2³¹). -/
theorem toInt_of_lt (s : BitVec 32) (h : s.toNat < 8) : s.toInt = s.toNat := by
  rw [BitVec.toInt_eq_toNat_cond, if_pos (by omega)]

/-- A word whose unsigned value is below 8 is not negative as a signed number. -/
theorem not_neg_of_lt (s : BitVec 32) (h : s.toNat < 8) : IntOp.cmpi .slt s 0#32 = 0#1 := by
  have e : s.toInt = s.toNat := toInt_of_lt s h
  have e0 : (0#32 : BitVec 32).toInt = 0 := by decide
  have hf : s.slt 0#32 = false := by
    simp only [BitVec.slt, e, e0, decide_eq_false_iff_not]; omega
  simp only [IntOp.cmpi, hf]
  rfl

/-- The start index the reference gives batch element b: the id itself when it is in 0 … 7. -/
theorem start_apply (x1 : (⟨S128, .i32⟩ : BufTy).Contents (Elt Ideal)) (b : Fin 128) (h : (x1 (ix1 b)).toNat < 8) :
    val_main_v5 (F := Ideal) x1 (ix2 b (0 : Fin 1)) = x1 (ix1 b) := by
  have hi : idx_main_v5 (ix2 b (0 : Fin 1)) = ix1 b := by
    funext a; match a with | ⟨0, _⟩ => rfl
  rw [val_main_v5_apply, hi, val_main_v4_apply, val_main_v1_apply, val_main_v0_apply, val_main_c_apply,
    not_neg_of_lt _ h, select_zero]

/-- Element (b, c, d) of the gathered table is the table's row "id of b" at (c, d). -/
theorem gathered_apply (x1 : (⟨S128, .i32⟩ : BufTy).Contents (Elt Ideal)) (x2 : (⟨S8x256x256, .f32⟩ : BufTy).Contents (Elt Ideal))
    (hs : ∀ b : Fin 128, (x1 (ix1 b)).toNat < 8) (b : Fin 128) (c d : Fin 256) :
    val_main_v6 (F := Ideal) x1 x2 (ix3 b c d) = x2 (ix3 (Cert.Spec.row (x1 (ix1 b))) c d) := by
  unfold val_main_v6
  rw [gather_apply]
  congr 2
  refine Fin.ext ?_
  show min (val_main_v5 (F := Ideal) x1 (ix2 b (0 : Fin 1))).toInt.toNat 7 = (Cert.Spec.row (x1 (ix1 b))).val
  rw [start_apply x1 b (hs b), Cert.Spec.row_val_of_lt (hs b), toInt_of_lt _ (hs b)]
  have := hs b
  omega

/-- With every subject id in 0 … 7, the reference's result term is `Cert.Spec.gatherMatmul` of the arguments. -/
theorem ref_value (x0 : (⟨S128x256x2048, .f32⟩ : BufTy).Contents (Elt Ideal)) (x1 : (⟨S128, .i32⟩ : BufTy).Contents (Elt Ideal))
    (x2 : (⟨S8x256x256, .f32⟩ : BufTy).Contents (Elt Ideal)) (hs : ∀ b : Fin 128, (x1 (ix1 b)).toNat < 8) :
    val_main_v7 (F := Ideal) x0 x1 x2 = Cert.Spec.gatherMatmul x0 x1 x2 := by
  -- element (b, d, t)
  funext i
  obtain ⟨b, d, t, rfl⟩ : ∃ (b : Fin 128) (d : Fin 256) (t : Fin 2048), i = ix3 b d t := ⟨i 0, i 1, i 2, eq_ix3 i⟩
  -- both sides are sums over the channel c; compare them term by term
  rw [val_main_v7_apply, Cert.Spec.gatherMatmul_apply]
  refine Finset.sum_congr rfl fun k _ => ?_
  -- the contraction reads the gathered table at (b, c, d) and x at (b, c, t)
  have hl : lidx_main_v7 (ix3 b d t) k = ix3 b k d := by
    funext a; match a with | ⟨0, _⟩ => rfl | ⟨1, _⟩ => rfl | ⟨2, _⟩ => rfl
  have hr : ridx_main_v7 (ix3 b d t) k = ix3 b k t := by
    funext a; match a with | ⟨0, _⟩ => rfl | ⟨1, _⟩ => rfl | ⟨2, _⟩ => rfl
  rw [hl, hr, gathered_apply x1 x2 hs]

end Cert.ReferenceIdeal.RefValue

end
-- ==== Proof.PreRange.lean ====
/-
  The precondition bounds the subject ids: each lies in 0 … 7.

  The printed precondition is the conjunction of four reductions by "and": the two finiteness tests
  and, over the 128 ids, s ≥ 0 (signed) and s < 8 (signed). From it being all ones, each id's
  unsigned value is below 8.
-/
import proofs.«419144_j22454089023726_3_alg».proof.Pre_finite_inputs
import proofs.«419144_j22454089023726_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Range

open Cert.Pre_finite_inputs Cert.Pre_finite_inputs.Gen
open Idealize.ShloMosaic Idealize.ShloMosaic.ValueIdx

variable {F : FTy → Type} [FloatOps F]

/-- The scalar shape has exactly one index, so a reduction into it collects every element of its operand. -/
instance : Subsingleton S_.Idx := ⟨fun _ _ => funext fun d => d.elim0⟩

/-- A 32-bit word s with 0 ≤ s and s < 8 as signed numbers has unsigned value below 8: the signed value of a word
    is its unsigned value when that is below 2³¹ and the unsigned value minus 2³² otherwise, and the second case is
    negative, which 0 ≤ s excludes. -/
theorem toNat_lt_eight (s : BitVec 32) (h0 : IntOp.cmpi .sge s 0#32 = 1#1) (h8 : IntOp.cmpi .slt s 8#32 = 1#1) :
    s.toNat < 8 := by
  simp only [IntOp.cmpi, StableHlo.Predicate.ofBool_eq_one_iff, BitVec.sle, BitVec.slt, decide_eq_true_eq] at h0 h8
  have e0 : (0#32 : BitVec 32).toInt = 0 := by decide
  have e8 : (8#32 : BitVec 32).toInt = 8 := by decide
  rw [e0] at h0
  rw [e8] at h8
  have hl := s.isLt
  rw [BitVec.toInt_eq_toNat_cond] at h0 h8
  split at h0 <;> omega

/-- Under the precondition every subject id's unsigned value is below 8. -/
theorem subjects_lt (x0 : FVec F S128x256x2048 .f32) (x1 : IVec S128 32) (x2 : FVec F S8x256x256 .f32)
    (h : Cert.Pre_finite_inputs.fn (F := F) x0 x1 x2 = fun _ => 1#1) :
    ∀ b : Fin 128, (x1 (ix1 b)).toNat < 8 := by
  intro b
  -- the predicate's one element is 1
  have h0 := congrFun h ix0
  dsimp only [fn, fn_part1] at h0
  -- it is ((finite x ∧ finite w) ∧ all (s ≥ 0)) ∧ all (s < 8): keep the last two conjuncts
  obtain ⟨h12, hlt⟩ := IntOp.andi_eq_one.1 h0
  obtain ⟨_, hge⟩ := IntOp.andi_eq_one.1 h12
  -- each "all" holds at every id, in particular at id b; a comparison against a broadcast constant at b compares
  -- the id with the constant
  have ge := Host.reduce_andi_all _ _ _ _ _ hge (ix1 b)
  have lt := Host.reduce_andi_all _ _ _ _ _ hlt (ix1 b)
  exact toNat_lt_eight _ ge lt

end Cert.Pre_finite_inputs.Range

end
-- ==== Proof.lean ====
/-
  The kernel and its reference compute the same gathered, batched product.

  x : [128, 256, 2048], subjects : [128] ids, weights : [8, 256, 256]. The reference takes, per batch
  element b, the weight matrix its id names and contracts the channel axis against x[b]:
  out[b, d, t] = Σ_c weights[s_b, c, d] · x[b, c, t]. The kernel clips the ids into 0 … 7 on the host
  and hands the clipped table to one region of 32 points, each doing four batch rows: a row's id is
  read from the table, the weight slab it names is loaded, and one matrix product is stored.

  Frames. The region's body assumes of each id it reads that it names one of the eight slabs; a
  clipped id does, for every input, so all three programs run to the end, fault nowhere and leave
  their arguments unchanged without any use of the precondition.

  Equal results. For ids in 0 … 7 — the precondition — the clip is the identity and the reference's
  index (s + 8 for a negative s, else s) is s itself, so both programs gather the same row; both
  contractions are the same finite sum of the same products over the extended reals, and the
  kernel's rounding of its operands to bf16 is the identity there. No law of arithmetic beyond that
  is needed, so the finiteness of the floats is never used. Outside 0 … 7 the two differ: for
  s = −1 the reference reads row 7 and the kernel row 0.

  The idealization rewrote nothing, so there is nothing to preserve.
-/
import proofs.«419144_j22454089023726_3_alg».proof.Defs
import proofs.«419144_j22454089023726_3_alg».proof.Proof.Gen.Kernel
import proofs.«419144_j22454089023726_3_alg».proof.Proof.Gen.KernelIdeal
import proofs.«419144_j22454089023726_3_alg».proof.Proof.Gen.ReferenceIdeal
import proofs.«419144_j22454089023726_3_alg».proof.Proof.Gen.Pre_finite_inputs
import proofs.«419144_j22454089023726_3_alg».proof.Proof.KB.Run
import proofs.«419144_j22454089023726_3_alg».proof.Proof.KI.Value
import proofs.«419144_j22454089023726_3_alg».proof.Proof.RefValue
import proofs.«419144_j22454089023726_3_alg».proof.Proof.PreRange
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is ten host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every id in 0 … 7, both programs end with the
    gathered, batched product of the arguments. -/
theorem algebraic : Cert.algebraic_KernelIdeal_ReferenceIdeal := by
  intro m ρ m' ρ' hpre hagree
  have hs : ∀ b : Fin 128, ((m (((0 : Dev Cert.KernelIdeal.nD).tc : Thread Cert.KernelIdeal.nD Cert.KernelIdeal.τ).loc Cert.KernelIdeal.main_arg1)
      : Cert.KernelIdeal.S128.Idx → Elt Ideal .i32) (ValueIdx.ix1 b)).toNat < 8 :=
    Cert.Pre_finite_inputs.Range.subjects_lt _ _ _ (hpre 0)
  refine ⟨fun c => Cert.KernelIdeal.Hand.G m c, Cert.KernelIdeal.Hand.run_value m ρ hs, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v7_eq, (hagree 0).1, (hagree 0).2.1, (hagree 0).2.2]
  exact Cert.ReferenceIdeal.RefValue.ref_value _ _ _ hs

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
